-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S100000x512 : Shape := ⟨2, ![100000, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) (main_arg2 : FVec F S100000x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 32 := constantI S_ 32 100000#32
  let main_v11 : IVec S2048 32 := broadcastInDim S2048 ![] bcast_S_S2048 main_c_3
  let main_v12 : IVec S2048 1 := cmpi .slt main_arg1 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  main_v15
-- ==== Kernel.lean ====
abbrev S2048x512 : Shape := ⟨2, ![2048, 512]⟩
abbrev S2048 : Shape := ⟨1, ![2048]⟩
abbrev S100000x512 : Shape := ⟨2, ![100000, 512]⟩
abbrev S_ : Shape := ⟨0, ![]⟩
abbrev S2048x1 : Shape := ⟨2, ![2048, 1]⟩
abbrev S512x2048 : Shape := ⟨2, ![512, 2048]⟩
abbrev S100000 : Shape := ⟨1, ![100000]⟩
abbrev S100000x1 : Shape := ⟨2, ![100000, 1]⟩
abbrev S1x2048 : Shape := ⟨2, ![1, 2048]⟩
abbrev S512x1024 : Shape := ⟨2, ![512, 1024]⟩
abbrev S2000x512 : Shape := ⟨2, ![2000, 512]⟩
abbrev S1x1024 : Shape := ⟨2, ![1, 1024]⟩
abbrev S2000x1024 : Shape := ⟨2, ![2000, 1024]⟩
abbrev S1024 : Shape := ⟨1, ![1024]⟩

abbrev nBuf : Space → Nat
  | .hbm => 81
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S100000x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S2048x512, .bf16⟩
  | .hbm, ⟨14, _⟩ => ⟨S512x2048, .bf16⟩
  | .hbm, ⟨15, _⟩ => ⟨S100000x512, .f32⟩
  | .hbm, ⟨16, _⟩ => ⟨S_, .f32⟩
  | .hbm, ⟨17, _⟩ => ⟨S100000, .f32⟩
  | .hbm, ⟨18, _⟩ => ⟨S100000x1, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S100000x512, .f32⟩
  | .hbm, ⟨24, _⟩ => ⟨S100000x512, .f32⟩
  | .hbm, ⟨25, _⟩ => ⟨S100000x512, .bf16⟩
  | .hbm, ⟨26, _⟩ => ⟨S1x2048, .f32⟩
  | .hbm, ⟨27, _⟩ => ⟨S2048, .f32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x512, .bf16⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S2048, .f32⟩
  | .hbm, ⟨68, _⟩ => ⟨S2048, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S2000x512, .bf16⟩
  | .local _ .vmem, ⟨3, _⟩ => ⟨S2000x512, .bf16⟩
  | .local _ .vmem, ⟨4, _⟩ => ⟨S1x1024, .f32⟩
  | .local _ .vmem, ⟨5, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  bitsLt_bf16_f32 : FTy.bits .bf16 < FTy.bits .f32
  transposes_S2048x512_S512x2048_1_0 : S2048x512.Transposes [1, 0] S512x2048
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  inb_S1x1024_S1x1024_0_0 : ∀ a, (![0, 0] : Fin 2 → Nat) a + S1x1024.size a ≤ S1x1024.size a
  h_S1x1024 : 0 < S1x1024.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1x1024_S1x1024 : S1x1024.ShapeCasts S1x1024
  reduces_S2000x1024_S1024 : S2000x1024.Reduces [0] S1024
  shapeCasts_S1024_S1x1024 : S1024.ShapeCasts S1x1024
  shapeCasts_S1x2048_S2048 : S1x2048.ShapeCasts S2048
  bcast_S_S2048 : S_.BroadcastsInDim S2048 (![] : Fin 0 → Fin S2048.rank)
  reducesTo_S2048_S_d0 : S2048.ReducesTo [0] S_
  dot_S2000x512_S512x1024_S2000x1024_1_0_0_1_n_n_wf : DotDims.WF S2000x512 S512x1024 S2000x1024 [1] [0] [0] [1] [] []
  gather_S100000x512_S2048x1_S2048x512_1_0_n_n_0_1_1512_wf : GatherDims.WF S100000x512 S2048x1 S2048x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x2048.size a
  hwx0_0 : ∀ i : grid0.Coords, EltTy.bits .bf16 = 32 ∨ (Rect.block (s := S512x2048) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .bf16 = 32 ∨ (Rect.block (s := S100000x512) S2000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)

variable [Facts₀]

def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def gather_S100000x512_S2048x1_S2048x512_1_0_n_n_0_1_1512 : GatherDims S100000x512 S2048x1 S2048x512 where
  offsetDims := [1]
  collapsedSliceDims := [0]
  operandBatchingDims := []
  startIndicesBatchingDims := []
  startIndexMap := [0]
  indexVectorDim := 1
  sliceSizes := ![1, 512]
  wf := gather_S100000x512_S2048x1_S2048x512_1_0_n_n_0_1_1512_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048 : Shape := ⟨1, ![2048]⟩
abbrev S100000x512 : Shape := ⟨2, ![100000, 512]⟩
abbrev S_ : Shape := ⟨0, ![]⟩
abbrev S2048x1 : Shape := ⟨2, ![2048, 1]⟩
abbrev S100000 : Shape := ⟨1, ![100000]⟩
abbrev S100000x1 : Shape := ⟨2, ![100000, 1]⟩
abbrev S512x100000 : Shape := ⟨2, ![512, 100000]⟩
abbrev S2048x100000 : Shape := ⟨2, ![2048, 100000]⟩
abbrev S1x100000 : Shape := ⟨2, ![1, 100000]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S100000x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S2048x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x100000, .f32⟩
  | .hbm, ⟨29, _⟩ => ⟨S2048x100000, .f32⟩
  | .hbm, ⟨30, _⟩ => ⟨S_, .f32⟩
  | .hbm, ⟨31, _⟩ => ⟨S2048x100000, .f32⟩
  | .hbm, ⟨32, _⟩ => ⟨S2048x100000, .f32⟩
  | .hbm, ⟨33, _⟩ => ⟨S2048x1, .i32⟩
  | .hbm, ⟨34, _⟩ => ⟨S1x100000, .i32⟩
  | .hbm, ⟨35, _⟩ => ⟨S2048x100000, .i32⟩
  | .hbm, ⟨36, _⟩ => ⟨S2048x100000, .i32⟩
  | .hbm, ⟨37, _⟩ => ⟨S2048x100000, .i1⟩
  | .hbm, ⟨38, _⟩ => ⟨S2048x100000, .f32⟩
  | .hbm, ⟨39, _⟩ => ⟨S_, .f32⟩
  | .hbm, ⟨40, _⟩ => ⟨S2048x100000, .f32⟩
  | .hbm, ⟨41, _⟩ => ⟨S2048x100000, .f32⟩
  | .hbm, ⟨42, _⟩ => ⟨S2048x100000, .f32⟩
  | .hbm, ⟨43, _⟩ => ⟨S_, .f32⟩
  | .hbm, ⟨44, _⟩ => ⟨S2048x100000, .f32⟩
  | .hbm, ⟨45, _⟩ => ⟨S2048x100000, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1, .f32⟩
  | .hbm, ⟨52, _⟩ => ⟨S2048x100000, .f32⟩
  | .hbm, ⟨53, _⟩ => ⟨S2048x100000, .f32⟩
  | .hbm, ⟨54, _⟩ => ⟨S2048x100000, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1, .f32⟩
  | .hbm, ⟨59, _⟩ => ⟨S2048x100000, .f32⟩
  | .hbm, ⟨60, _⟩ => ⟨S2048x100000, .f32⟩
  | .hbm, ⟨61, _⟩ => ⟨S2048x1, .i32⟩
  | .hbm, ⟨62, _⟩ => ⟨S_, .i32⟩
  | .hbm, ⟨63, _⟩ => ⟨S2048x1, .i32⟩
  | .hbm, ⟨64, _⟩ => ⟨S2048x1, .i1⟩
  | .hbm, ⟨65, _⟩ => ⟨S_, .i32⟩
  | .hbm, ⟨66, _⟩ => ⟨S2048x1, .i32⟩
  | .hbm, ⟨67, _⟩ => ⟨S2048x1, .i32⟩
  | .hbm, ⟨68, _⟩ => ⟨S2048x1, .i32⟩
  | .hbm, ⟨69, _⟩ => ⟨S2048x1x1, .i32⟩
  | .hbm, ⟨70, _⟩ => ⟨S1, .i32⟩
  | .hbm, ⟨71, _⟩ => ⟨S_, .i32⟩
  | .hbm, ⟨72, _⟩ => ⟨S2048x1x1, .i32⟩
  | .hbm, ⟨73, _⟩ => ⟨S2048x1x1, .i1⟩
  | .hbm, ⟨74, _⟩ => ⟨S1x1x1, .i32⟩
  | .hbm, ⟨75, _⟩ => ⟨S2048x1x1, .i32⟩
  | .hbm, ⟨76, _⟩ => ⟨S2048x1x1, .i1⟩
  | .hbm, ⟨77, _⟩ => ⟨S2048x1x1, .i1⟩
  | .hbm, ⟨78, _⟩ => ⟨S_, .i1⟩
  | .hbm, ⟨79, _⟩ => ⟨S2048x1, .i1⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S2048, .f32⟩
  | .hbm, ⟨85, _⟩ => ⟨S2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_call2_cst_0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_cst_1 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_v25 : Ref sig .tc := ⟨.hbm, 60, rfl⟩
abbrev main_v26 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_cst : Ref sig .tc := ⟨.hbm, 81, rfl⟩
abbrev main_call3_v14 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_7 : Ref sig .tc := ⟨.hbm, 86, rfl⟩
abbrev main_v30 : Ref sig .tc := ⟨.hbm, 87, rfl⟩
abbrev main_cst_8 : Ref sig .tc := ⟨.hbm, 88, rfl⟩
abbrev main_v31 : Ref sig .tc := ⟨.hbm, 89, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S2048x100000 : S_.BroadcastsInDim S2048x100000 (![] : Fin 0 → Fin S2048x100000.rank)
  bcast_S2048x1_S2048x100000_0_1 : S2048x1.BroadcastsInDim S2048x100000 (![0, 1] : Fin 2 → Fin S2048x100000.rank)
  bcast_S1x100000_S2048x100000_0_1 : S1x100000.BroadcastsInDim S2048x100000 (![0, 1] : Fin 2 → Fin S2048x100000.rank)
  reducesTo_S2048x100000_S2048_d1 : S2048x100000.ReducesTo [1] S2048
  bcast_S_S2048 : S_.BroadcastsInDim S2048 (![] : Fin 0 → Fin S2048.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S2048x512_S512x100000_S2048x100000_1_0_0_1_n_n_wf : DotDims.WF S2048x512 S512x100000 S2048x100000 [1] [0] [0] [1] [] []
  gather_S2048x100000_S2048x1x1_S2048x1_n_1_0_0_1_2_11_wf : GatherDims.WF S2048x100000 S2048x1x1 S2048x1 [] [1] [0] [1] [0] 2 ![1, 1]

variable [Facts₀]

def dot_S2048x512_S512x100000_S2048x100000_1_0_0_1_n_n : DotDims S2048x512 S512x100000 S2048x100000 where
  lhsContracting := [1]
  rhsContracting := [0]
  lhsNonContracting := [0]
  rhsNonContracting := [1]
  lhsBatch := []
  rhsBatch := []
  wf := dot_S2048x512_S512x100000_S2048x100000_1_0_0_1_n_n_wf
def gather_S2048x100000_S2048x1x1_S2048x1_n_1_0_0_1_2_11 : GatherDims S2048x100000 S2048x1x1 S2048x1 where
  offsetDims := []
  collapsedSliceDims := [1]
  operandBatchingDims := [0]
  startIndicesBatchingDims := [0]
  startIndexMap := [1]
  indexVectorDim := 2
  sliceSizes := ![1, 1]
  wf := gather_S2048x100000_S2048x1x1_S2048x1_n_1_0_0_1_2_11_wf

class Facts : Prop extends Facts₀ where

variable [Facts]
-- ==== Proof.MarginLoss.lean ====
/-
  The margin-softmax loss both programs compute, as functions on the extended reals.

  A row's clipped cosines `c k` (one per class `k`, each inside the closed interval [kLo, kHi] after the clip) and
  its class `g` determine the row's loss.  One program forms the softmax denominator with the fixed shift 30,
  removes the class's plain term and adds its margin-adjusted term (`rowLossK`); the other subtracts the row
  maximum `M`, sums all classes with the margin applied through the one-hot row `h`, and reads the class's
  log-probability (`rowLossR`).  Over the reals the shift cancels:
  `log (∑ exp (a k - M)) = (30 - M) + log (∑ exp (a k - 30))`, and the sum with the margin applied at `g` is the
  plain sum with the one term exchanged.  The final value is the mean over the 2048 rows (`meanLoss`).
-/
import Idealize.ShloMosaic.PureOps.Ideal
import Idealize.ShloMosaic.Lib.ValueIdx

noncomputable section

open scoped BigOperators

namespace Cert.MarginLoss

open Idealize.ShloMosaic Idealize.ShloMosaic.ValueIdx

/-- The lower clip bound, -(1 - 2⁻²³). -/
abbrev kLo : EReal := Ideal.ofBits .f32 0xBF7FFFFE#32
/-- The upper clip bound, 1 - 2⁻²³. -/
abbrev kHi : EReal := Ideal.ofBits .f32 0x3F7FFFFE#32
/-- The scale, 30. -/
abbrev kScale : EReal := Ideal.ofBits .f32 0x41F00000#32
/-- The margin, the single-precision number nearest 0.4. -/
abbrev kMargin : EReal := Ideal.ofBits .f32 0x3ECCCCCD#32
/-- The floor under the corrected denominator, the single-precision number nearest 10⁻³⁰. -/
abbrev kTiny : EReal := Ideal.ofBits .f32 0x0DA24260#32
/-- Zero, as the sums' initial value. -/
abbrev kZero : EReal := Ideal.ofBits .f32 0x00000000#32
/-- The row count, 2048. -/
abbrev kCount : EReal := Ideal.ofBits .f32 0x45000000#32

/-- The clip into [kLo, kHi]. -/
def clip (x : EReal) : EReal := min kHi (max kLo x)

/-- The inner product of row `n` of `e` with row `k` of `w`. -/
def cosine (e : (⟨2, ![2048, 512]⟩ : Shape).Idx → EReal) (w : (⟨2, ![100000, 512]⟩ : Shape).Idx → EReal)
    (n : Fin 2048) (k : Fin 100000) : EReal :=
  ∑ d : Fin 512, e (ix2 n d) * w (ix2 k d)

/-- The plain softmax denominator of a row at the fixed shift: `∑ₖ exp (30 · c k - 30)`. -/
def plainDenominator (c : Fin 100000 → EReal) : EReal :=
  ∑ k : Fin 100000, Ideal.exp (kScale * c k - kScale)

/-- A row's loss from the plain denominator `s` and the class's clipped cosine `cg`: the class's plain term is
    exchanged for its margin-adjusted one, the result kept above `kTiny`, and the class's adjusted logit taken off. -/
def rowLossK (s cg : EReal) : EReal :=
  (kScale + Ideal.log (max ((s - Ideal.exp (kScale * cg - kScale)) + Ideal.exp (kScale * (cg - kMargin) - kScale)) kTiny))
    - kScale * (cg - kMargin)

/-- A row's logit at class `k`: the scale times the clipped cosine less the margin on the one-hot row. -/
def logit (c h : Fin 100000 → EReal) (k : Fin 100000) : EReal := kScale * (c k - kMargin * h k)

/-- A row's loss as the negated log-probability of class `g` after the shift by `M`. -/
def rowLossR (c h : Fin 100000 → EReal) (g : Fin 100000) (M : EReal) : EReal :=
  -((logit c h g - M) - Ideal.log (kZero + ∑ k : Fin 100000, Ideal.exp (logit c h k - M)))

/-- The mean of the rows' losses: the sum from zero, divided by the row count. -/
def meanLoss (f : (⟨1, ![2048]⟩ : Shape).Idx → EReal) : EReal :=
  Ideal.div (kZero + ∑ j : (⟨1, ![2048]⟩ : Shape).Idx, f j) kCount

/-- The class a label word names, when it is below the class count. -/
def classOf (w : BitVec 32) (h : w.toNat < 100000) : Fin 100000 := ⟨w.toNat, h⟩

end Cert.MarginLoss

end
-- ==== Proof.RegionSum.lean ====
/-
  The kernel region's output, entry by entry: the plain softmax denominator of every column.

  The grid has 2 × 50 points; point t = 50·a + b holds column tile a (columns 1024·a … 1024·a + 1023 of the transposed
  embeddings, [512,2048]) and class tile b (rows 2000·b … 2000·b + 1999 of the weights, [100000,512]).  Its update adds,
  at column q of the [1,1024] output block, the 2000 terms exp(30·clip(⟨w_k, e_n⟩) − 30) of its class tile
  (k = 2000·b + r, n = 1024·a + q) to what the block held; the first point of a column tile (b = 0) starts from the
  zero block.  So after point t the block's column q holds the terms of classes 0 … 2000·(b+1) − 1 (induction on the
  point; the sum over an initial segment of the classes splits as the segment before plus the next 2000), after the
  last point of the column tile (b = 49) all 100000, and that block is what is written back to columns
  1024·a … 1024·a + 1023 of the [1,2048] array.  Every column lies in exactly such a block, so entry (0, n) of the
  array ends as ∑ₖ exp(30·clip(⟨w_k, e_n⟩) − 30) over all classes k: the plain denominator of column n.

  Over the extended reals the sums are sums in a commutative monoid: no order of summation matters, and the zero the
  first point starts from is the monoid's zero.
-/
import proofs.«411922_j77790447665629_2_alg».proof.Proof.MarginLoss
import proofs.«411922_j77790447665629_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
import Mathlib.Algebra.BigOperators.Group.Finset.Basic

set_option maxRecDepth 16384

noncomputable section

open scoped BigOperators
open Idealize.ShloMosaic Idealize.ShloMosaic.TcCoe Idealize.SL.Sem
open Idealize.ShloMosaic.Pipeline (Dat)

namespace Cert.KernelIdeal.RegionSum

open Cert.KernelIdeal Cert.KernelIdeal.Gen Cert.MarginLoss Idealize.ShloMosaic Idealize.ShloMosaic.ValueIdx

/-! ## What one grid point leaves in the output block -/

section Pieces
variable {F : FTy → Type} [FloatOps F]

/-- The zero offsets of a block read whole. -/
theorem hz : (![0, 0] : Fin 2 → Nat) = fun _ => 0 := funext fun a => by fin_cases a <;> rfl

/-- A point that is not the first of its column tile: the block holds the update of what it held before. -/
theorem out_B (c : Dev nD) (i : grid0.Coords) (a2 : Memref sig .tc .vmem S512x1024 .bf16) (h2 : a2.IsWhole)
    (a3 : Memref sig .tc .vmem S2000x512 .bf16) (h3 : a3.IsWhole) (a4 : Memref sig .tc .vmem S1x1024 .f32) (h4 : a4.IsWhole)
    (hc : ¬cond0_0 i) (x0 : Vec F S512x1024 .bf16) (x1 : Vec F S2000x512 .bf16) (xo : Vec F S1x1024 .f32) :
    out0_B_2 c i a2 h2 a3 h3 a4 h4 hc x0 x1 xo = k0_pay2 x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S512x1024) hz,
    View.ld_unit_zero (S := S2000x512) hz, View.ld_unit_zero (S := S1x1024) hz]

/-- The first point of a column tile: the block is zeroed, then updated. -/
theorem out_A (c : Dev nD) (i : grid0.Coords) (a2 : Memref sig .tc .vmem S512x1024 .bf16) (h2 : a2.IsWhole)
    (a3 : Memref sig .tc .vmem S2000x512 .bf16) (h3 : a3.IsWhole) (a4 : Memref sig .tc .vmem S1x1024 .f32) (h4 : a4.IsWhole)
    (hc : cond0_0 i) (x0 : Vec F S512x1024 .bf16) (x1 : Vec F S2000x512 .bf16) :
    out0_A_2 c i a2 h2 a3 h3 a4 h4 hc x0 x1 = k0_pay2 x1 x0 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024) hz, View.readCov_unit_zero (S := S1x1024) _ hz]
  simp only [View.readAt_eq_ld, h2.read_unread, h3.read_unread, View.ld_unit_zero (S := S512x1024) hz,
    View.ld_unit_zero (S := S2000x512) hz, View.ld_unit_zero (S := S1x1024) hz]

end Pieces

/-! ## The update read at an entry -/

section Payload

/-- The product's operand indices, axis by axis: entry (r, q) of the product reads row r of the left operand and
    column q of the right, along the one contracted coordinate. -/
theorem lhs_mm_0 (i : S2000x1024.Idx) (q : dot_S2000x512_S512x1024_S2000x1024_1_0_0_1_n_n.contr.Idx) :
    (dot_S2000x512_S512x1024_S2000x1024_1_0_0_1_n_n.lhsIdx i q 0).val = (i 0).val := by
  unfold DotDims.lhsIdx
  rw [dif_neg (show ¬(0 : Fin S2000x512.rank) ∈ dot_S2000x512_S512x1024_S2000x1024_1_0_0_1_n_n.lhsBatch by decide), dif_pos (show (0 : Fin S2000x512.rank) ∈ dot_S2000x512_S512x1024_S2000x1024_1_0_0_1_n_n.lhsNonContracting by decide)]
  rfl
theorem lhs_mm_1 (i : S2000x1024.Idx) (q : dot_S2000x512_S512x1024_S2000x1024_1_0_0_1_n_n.contr.Idx) :
    (dot_S2000x512_S512x1024_S2000x1024_1_0_0_1_n_n.lhsIdx i q 1).val = (q ⟨0, by decide⟩).val :=
  dot_S2000x512_S512x1024_S2000x1024_1_0_0_1_n_n.lhsIdx_val_of_single rfl i q
theorem rhs_mm_0 (i : S2000x1024.Idx) (q : dot_S2000x512_S512x1024_S2000x1024_1_0_0_1_n_n.contr.Idx) :
    (dot_S2000x512_S512x1024_S2000x1024_1_0_0_1_n_n.rhsIdx i q 0).val = (q ⟨0, by decide⟩).val :=
  dot_S2000x512_S512x1024_S2000x1024_1_0_0_1_n_n.rhsIdx_val_of_single rfl i q
theorem rhs_mm_1 (i : S2000x1024.Idx) (q : dot_S2000x512_S512x1024_S2000x1024_1_0_0_1_n_n.contr.Idx) :
    (dot_S2000x512_S512x1024_S2000x1024_1_0_0_1_n_n.rhsIdx i q 1).val = (i 1).val := by
  unfold DotDims.rhsIdx
  rw [dif_neg (show ¬(1 : Fin S512x1024.rank) ∈ dot_S2000x512_S512x1024_S2000x1024_1_0_0_1_n_n.rhsBatch by decide), dif_pos (show (1 : Fin S512x1024.rank) ∈ dot_S2000x512_S512x1024_S2000x1024_1_0_0_1_n_n.rhsNonContracting by decide)]
  rfl

/-- The product of a weight block and an embedding block at (r, q): the inner product of row r with column q. -/
theorem matmul_at (v3 : FVec Ideal S2000x512 .bf16) (v5 : FVec Ideal S512x1024 .bf16) (r : Fin 2000) (q : Fin 1024) :
    FloatOps.matmul dot_S2000x512_S512x1024_S2000x1024_1_0_0_1_n_n none v3 v5 (constant (F := Ideal) S2000x1024 .f32 0x00000000#32) (ix2 r q)
      = ∑ d : Fin 512, v3 (ix2 r d) * v5 (ix2 d q) := by
  rw [Ideal.matmul_constant_zero_apply, ← Equiv.sum_comp (ValueIdx.contrEquiv1 dot_S2000x512_S512x1024_S2000x1024_1_0_0_1_n_n 512 rfl rfl).symm]
  refine Finset.sum_congr rfl fun k _ => ?_
  have hk := ValueIdx.contrEquiv1_symm_val dot_S2000x512_S512x1024_S2000x1024_1_0_0_1_n_n 512 rfl rfl k
  have el : dot_S2000x512_S512x1024_S2000x1024_1_0_0_1_n_n.lhsIdx (ix2 r q) ((ValueIdx.contrEquiv1 dot_S2000x512_S512x1024_S2000x1024_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2000x512_S512x1024_S2000x1024_1_0_0_1_n_n.rhsIdx (ix2 r q) ((ValueIdx.contrEquiv1 dot_S2000x512_S512x1024_S2000x1024_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

/-- The row put back into a column index is (row, column). -/
theorem lift_rows (h : S2000x1024.Reduces [0] S1024) (q : Fin 1024) (k : Fin (S2000x1024.size 0)) :
    h.lift (ix1 q) k = ix2 (⟨k.val, k.isLt⟩ : Fin 2000) q := by
  funext c; apply Fin.ext
  fin_cases c <;> rfl

/-- The sum over the 2000 rows of a block, read at column q. -/
theorem rowsum_at (src : FVec Ideal S2000x1024 .f32) (h : S2000x1024.Reduces [0] S1024) (hφ : FKind.Formats .f32)
    (hacc : (0x00000000#32 : BitVec 32) = 0x00000000#32) (q : Fin 1024) :
    multiReduction (F := Ideal) .add [0] S1024 src 0x00000000#32 h hφ hacc (ix1 q) = ∑ r : Fin 2000, src (ix2 r q) := by
  refine (Ideal.multiReduction_add_single src 0x00000000#32 h hφ hacc (ix1 q)).trans ?_
  exact Finset.sum_congr rfl fun k _ => congrArg src (lift_rows h q k)

/-- One point's update at column q of the block: what the block held plus the tile's 2000 terms. -/
theorem pay2_at (v3 : Vec Ideal S2000x512 .bf16) (v5 : Vec Ideal S512x1024 .bf16) (v17 : Vec Ideal S1x1024 .f32) (q : Fin 1024) :
    k0_pay2 (F := Ideal) v3 v5 v17 (ix2 (0 : Fin 1) q)
      = v17 (ix2 (0 : Fin 1) q) + ∑ r : Fin 2000, Ideal.exp (kScale * clip (∑ d : Fin 512, v3 (ix2 r d) * v5 (ix2 d q)) - kScale) := by
  unfold k0_pay2
  simp only [shapeCast_self]
  refine (addf_apply _ _ _).trans ?_
  refine congrArg (v17 (ix2 (0 : Fin 1) q) + ·) ?_
  refine (shapeCast_a_1a_apply _ _ (0 : Fin 1) q).trans ?_
  refine (rowsum_at _ _ _ _ q).trans ?_
  refine Finset.sum_congr rfl fun r _ => ?_
  show Ideal.exp (kScale * min kHi (max kLo (FloatOps.matmul dot_S2000x512_S512x1024_S2000x1024_1_0_0_1_n_n none v3 v5 (constant (F := Ideal) S2000x1024 .f32 0x00000000#32) (ix2 r q))) - kScale) = _
  rw [matmul_at]
  rfl

end Payload

/-! ## The grid: blocks of the arrays, the running sum, the flushed blocks -/

section Grid
variable (m : (ℓ : Loc nD τ sig) → Buf (Elt Ideal) ℓ)

/-- The weight array [100000,512] and the transposed embedding array [512,2048] as the region finds them. -/
abbrev warr (c : Dev nD) : Vec Ideal S100000x512 .bf16 := V m c main_v18
abbrev earr (c : Dev nD) : Vec Ideal S512x2048 .bf16 := V m c main_v9
/-- Their blocks at a grid point: 2000 rows of the weights, 1024 columns of the embeddings. -/
abbrev wblk (c : Dev nD) (t : Fin cfg0.N) : Vec Ideal S2000x512 .bf16 := iblk m c 1 t
abbrev eblk (c : Dev nD) (t : Fin cfg0.N) : Vec Ideal S512x1024 .bf16 := iblk m c 0 t

/-- Point t = 50·a + b works on column tile a and class tile b: the block indices of the three windows. -/
theorem idx_facts : ∀ t : Fin cfg0.N,
    win0_0.index t (0 : Fin 2) = 0 ∧ win0_0.index t (1 : Fin 2) = t.val / 50
    ∧ win0_1.index t (0 : Fin 2) = t.val % 50 ∧ win0_1.index t (1 : Fin 2) = 0
    ∧ win0_2.index t (0 : Fin 2) = 0 ∧ win0_2.index t (1 : Fin 2) = t.val / 50 :=
  (by decide +kernel : ∀ t : Fin grid0.N, _)

/-- Row r of the weight block at point t is row 2000·(t mod 50) + r of the weight array. -/
theorem wblk_at (c : Dev nD) (t : Fin cfg0.N) (r : Fin 2000) (d : Fin 512) (k : Fin 100000)
    (hk : k.val = 2000 * (t.val % 50) + r.val) :
    wblk m c t (ix2 r d) = warr m c (ix2 k d) := by
  obtain ⟨e0, e1, e2, e3, e4, e5⟩ := idx_facts t
  show V m c main_v18 (((cfg0.win 1).blk t).view.emb (ix2 r d)) = V m c main_v18 (ix2 k d)
  have h : ((cfg0.win 1).blk t).view.emb (ix2 r d) = ix2 k d := by
    funext a; apply Fin.ext
    match a with
    | ⟨0, _⟩ => show win0_1.index t (0 : Fin 2) * 2000 + 1 * r.val = k.val; omega
    | ⟨1, _⟩ => show win0_1.index t (1 : Fin 2) * 512 + 1 * d.val = d.val; omega
  rw [h]

/-- Column q of the embedding block at point t is column 1024·(t div 50) + q of the embedding array. -/
theorem eblk_at (c : Dev nD) (t : Fin cfg0.N) (d : Fin 512) (q : Fin 1024) (n : Fin 2048)
    (hn : n.val = 1024 * (t.val / 50) + q.val) :
    eblk m c t (ix2 d q) = earr m c (ix2 d n) := by
  obtain ⟨e0, e1, e2, e3, e4, e5⟩ := idx_facts t
  show V m c main_v9 (((cfg0.win 0).blk t).view.emb (ix2 d q)) = V m c main_v9 (ix2 d n)
  have h : ((cfg0.win 0).blk t).view.emb (ix2 d q) = ix2 d n := by
    funext a; apply Fin.ext
    match a with
    | ⟨0, _⟩ => show win0_0.index t (0 : Fin 2) * 512 + 1 * d.val = d.val; omega
    | ⟨1, _⟩ => show win0_0.index t (1 : Fin 2) * 1024 + 1 * q.val = n.val; omega
  rw [h]

/-- The term of class k in column n: exp(30·clip(⟨w_k, e_n⟩) − 30). -/
def term (c : Dev nD) (n : Fin 2048) (k : Fin 100000) : EReal :=
  Ideal.exp (kScale * clip (∑ d : Fin 512, warr m c (ix2 k d) * earr m c (ix2 d n)) - kScale)

/-- The same indexed by a natural number, zero past the class count. -/
def termN (c : Dev nD) (n : Fin 2048) (j : ℕ) : EReal := if h : j < 100000 then term m c n ⟨j, h⟩ else 0

/-- One point's update at column q of its block: the 2000 terms of its class tile are added. -/
theorem update_at (c : Dev nD) (t : Fin cfg0.N) (q : Fin 1024) (n : Fin 2048) (hn : n.val = 1024 * (t.val / 50) + q.val)
    (acc : Vec Ideal S1x1024 .f32) :
    k0_pay2 (F := Ideal) (wblk m c t) (eblk m c t) acc (ix2 (0 : Fin 1) q)
      = acc (ix2 (0 : Fin 1) q) + ∑ x ∈ Finset.range 2000, termN m c n (2000 * (t.val % 50) + x) := by
  refine (pay2_at (wblk m c t) (eblk m c t) acc q).trans ?_
  refine congrArg (acc (ix2 (0 : Fin 1) q) + ·) ?_
  rw [Finset.sum_range]
  refine Finset.sum_congr rfl fun r _ => ?_
  have ht : t.val < 100 := lt_of_lt_of_eq t.isLt N_0
  have hk : 2000 * (t.val % 50) + r.val < 100000 := by omega
  unfold termN
  rw [dif_pos hk]
  unfold term
  have e : ∀ d : Fin 512, wblk m c t (ix2 r d) * eblk m c t (ix2 d q) = warr m c (ix2 ⟨2000 * (t.val % 50) + r.val, hk⟩ d) * earr m c (ix2 d n) :=
    fun d => by rw [wblk_at m c t r d ⟨2000 * (t.val % 50) + r.val, hk⟩ rfl, eblk_at m c t d q n hn]
  rw [Finset.sum_congr rfl fun d _ => e d]

/-- The zero block read at an entry. -/
theorem pay1_at (q : Fin 1024) : k0_pay1 (F := Ideal) (ix2 (0 : Fin 1) q) = 0 := by
  show (Ideal.ofBits .f32 0x00000000#32 : EReal) = 0
  exact Ideal.ofBits_zero_f32

/-- What a point leaves, by its place in its column tile: the first starts from the zero block, -/
theorem outsAt_A (c : Dev nD) (t : Fin cfg0.N) (h0 : t.val % 50 = 0) :
    outsAt0 m c t.val t.isLt = k0_pay2 (wblk m c t) (eblk m c t) (k0_pay1 (F := Ideal)) := by
  rw [outsAt0_A m c t h0]
  exact out_A (F := Ideal) c (grid0.coords t) (ms0_0 t) (hs0_0 t) (ms0_1 t) (hs0_1 t) (ms0_2 t) (hs0_2 t) ((hcond0_0 t).mpr h0) (iblk m c 0 t) (iblk m c 1 t)

/-- every other from what the point before left. -/
theorem outsAt_B (c : Dev nD) (t : Fin cfg0.N) (h0 : ¬t.val % 50 = 0) :
    outsAt0 m c t.val t.isLt = k0_pay2 (wblk m c t) (eblk m c t) (outsAt0 m c (t.val - 1) (Nat.lt_of_le_of_lt (Nat.sub_le _ _) t.isLt)) := by
  rw [outsAt0_B m c t h0]
  exact out_B (F := Ideal) c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt))

/-- THE RUNNING SUM. After point t = 50·a + b the block's column q holds the terms of classes 0 … 2000·(b+1) − 1 of
    column 1024·a + q: the first point of a column tile starts from zero, every other adds its tile to what the point
    before left. -/
theorem outsAt_at (c : Dev nD) (t : ℕ) : ∀ (ht : t < cfg0.N) (q : Fin 1024) (n : Fin 2048), n.val = 1024 * (t / 50) + q.val →
    outsAt0 m c t ht (ix2 (0 : Fin 1) q) = ∑ j ∈ Finset.range (2000 * (t % 50 + 1)), termN m c n j := by
  induction t with
  | zero =>
    intro ht q n hn
    refine (congrFun (outsAt_A m c ⟨0, ht⟩ rfl) (ix2 (0 : Fin 1) q)).trans ?_
    refine (update_at m c ⟨0, ht⟩ q n hn (k0_pay1 (F := Ideal))).trans ?_
    rw [pay1_at, zero_add]
    rfl
  | succ t ih =>
    intro ht q n hn
    have hN : t + 1 < 100 := lt_of_lt_of_eq ht N_0
    by_cases h0 : (t + 1) % 50 = 0
    · refine (congrFun (outsAt_A m c ⟨t + 1, ht⟩ h0) (ix2 (0 : Fin 1) q)).trans ?_
      refine (update_at m c ⟨t + 1, ht⟩ q n hn (k0_pay1 (F := Ideal))).trans ?_
      rw [pay1_at, zero_add]
      show ∑ x ∈ Finset.range 2000, termN m c n (2000 * ((t + 1) % 50) + x) = _
      rw [h0]
      simp only [Nat.mul_zero, Nat.zero_add, Nat.mul_one]
    · refine (congrFun (outsAt_B m c ⟨t + 1, ht⟩ h0) (ix2 (0 : Fin 1) q)).trans ?_
      refine (update_at m c ⟨t + 1, ht⟩ q n hn _).trans ?_
      have hb : (t + 1) % 50 = t % 50 + 1 := by omega
      have hn' : n.val = 1024 * (t / 50) + q.val := by omega
      have ihq := ih (Nat.lt_of_succ_lt ht) q n hn'
      refine (congrArg (· + ∑ x ∈ Finset.range 2000, termN m c n (2000 * ((t + 1) % 50) + x)) ihq).trans ?_
      rw [hb, show 2000 * (t % 50 + 1 + 1) = 2000 * (t % 50 + 1) + 2000 by omega, Finset.sum_range_add]

/-- The array the flushed blocks are blocks of: entry (0, n) is the sum of all 100000 terms of column n. -/
def total (c : Dev nD) : Vec Ideal S1x2048 .f32 :=
  fun i => ∑ j ∈ Finset.range 100000, termN m c ⟨(i 1).val, idx2_lt1 i⟩ j

/-- The last point of a column tile leaves the whole sums of its 1024 columns: entry y of its block is entry
    (0, 1024·a + y₁) of the array of whole sums. -/
theorem flushed_at (c : Dev nD) (t : Fin cfg0.N) (h49 : t.val % 50 = 49) (y : ((cfg0.win 2).xblock (grid0.coords t)).Idx) :
    outsAt0 m c t.val t.isLt ((cfg0.win 2).xinj (grid0.coords t) y) = total m c (((cfg0.win 2).blk t).view.emb y) := by
  have hq : (y 1).val < 1024 := (y 1).isLt
  have hp : (y 0).val < 1 := (y 0).isLt
  have hx : (cfg0.win 2).xinj (grid0.coords t) y = ix2 (0 : Fin 1) (⟨(y 1).val, hq⟩ : Fin 1024) := by
    funext a; apply Fin.ext
    match a with
    | ⟨0, _⟩ => show (y 0).val = 0; omega
    | ⟨1, _⟩ => rfl
  obtain ⟨e0, e1, e2, e3, e4, e5⟩ := idx_facts t
  have hidx : (((cfg0.win 2).blk t).view.emb y 1).val = 1024 * (t.val / 50) + (y 1).val := by
    show win0_2.index t (1 : Fin 2) * 1024 + 1 * (y 1).val = _
    omega
  rw [hx]
  unfold total
  refine (outsAt_at m c t.val t.isLt ⟨(y 1).val, hq⟩ ⟨_, idx2_lt1 (((cfg0.win 2).blk t).view.emb y)⟩ hidx).trans ?_
  rw [h49]

/-- A block of an array of the output's shape, read at an entry, is the array at the entry's place. -/
theorem read_blk2 (G : Vec Ideal S1x2048 .f32) (t : Fin cfg0.N) (y : ((cfg0.win 2).xblock (grid0.coords t)).Idx) :
    ((cfg0.win 2).blk t).view.read (Elt Ideal) G y = G (((cfg0.win 2).blk t).view.emb y) := rfl

/-- What a writing-back point writes back is its block of the array of whole sums. -/
theorem flushed_eq (c : Dev nD) (t : Fin cfg0.N) (hf : (cfg0.win 2).flush t = true) :
    (dats m 0 c).flushed 2 t = ((cfg0.win 2).blk t).view.read (Elt Ideal) (total m c) := by
  have h49 : t.val % 50 = 49 := (flush0_2 t).mp hf
  show (cfg0.win 2).cut (grid0.coords t) ((dats m 0 c).after 2 t) = _
  rw [after0_2]
  funext y
  exact (flushed_at m c t h49 y).trans (read_blk2 (total m c) t y).symm

/-- An index of the output array is in point t's block iff each coordinate is in the block's range on its axis. -/
theorem mem_blk (t : Fin cfg0.N) (i : S1x2048.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v19).slice (win0_2.rect t)).set ↔ _
  rw [View.set_slice_whole, Rect.mem_set_unit]
  exact Iff.rfl

/-- Column n lies in the block the last point of column tile n div 1024 writes back. -/
theorem cover (i : S1x2048.Idx) : ∃ t : Fin cfg0.N, (cfg0.win 2).flush t = true ∧ i ∈ ((cfg0.win 2).blk t).view.set := by
  have h0 : (i 0).val < 1 := idx2_lt0 i
  have h1 : (i 1).val < 2048 := idx2_lt1 i
  have hN : 50 * ((i 1).val / 1024) + 49 < cfg0.N := by rw [show cfg0.N = 100 from N_0]; omega
  obtain ⟨e0, e1, e2, e3, e4, e5⟩ := idx_facts ⟨50 * ((i 1).val / 1024) + 49, hN⟩
  have e5' : win0_2.index ⟨50 * ((i 1).val / 1024) + 49, hN⟩ (1 : Fin 2) = (50 * ((i 1).val / 1024) + 49) / 50 := e5
  refine ⟨⟨50 * ((i 1).val / 1024) + 49, hN⟩, (flush0_2 _).mpr (by show (50 * ((i 1).val / 1024) + 49) % 50 = 49; omega), ?_⟩
  rw [mem_blk]
  intro a
  match a with
  | ⟨0, _⟩ => show win0_2.index ⟨50 * ((i 1).val / 1024) + 49, hN⟩ (0 : Fin 2) * 1 ≤ (i 0).val ∧ (i 0).val < win0_2.index ⟨50 * ((i 1).val / 1024) + 49, hN⟩ (0 : Fin 2) * 1 + 1; omega
  | ⟨1, _⟩ => show win0_2.index ⟨50 * ((i 1).val / 1024) + 49, hN⟩ (1 : Fin 2) * 1024 ≤ (i 1).val ∧ (i 1).val < win0_2.index ⟨50 * ((i 1).val / 1024) + 49, hN⟩ (1 : Fin 2) * 1024 + 1024; omega

/-- The output array after the whole grid. -/
theorem final (c : Dev nD) : (dats m 0 c).arrAt 2 cfg0.N = total m c :=
  (dats m 0 c).arrAt_eq_of_cover 2 (total m c) (flushed_eq m c) cover

/-- After the whole grid, entry (0, n) of the region's output array is the plain softmax denominator of column n: the sum
    over all 100000 classes k of exp(30·clip(Σ_d w[k,d]·eT[d,n]) − 30). -/
theorem region_sum (c : Dev nD) (n : Fin 2048) :
    ((Gen.dats m 0 c).arrAt 2 cfg0.N : S1x2048.Idx → EReal) (ix2 0 n)
      = plainDenominator (fun k => clip (∑ d : Fin 512, warr m c (ix2 k d) * earr m c (ix2 d n))) := by
  refine (congrFun (final m c) (ix2 0 n)).trans ?_
  unfold total
  show ∑ j ∈ Finset.range 100000, termN m c n j = _
  unfold plainDenominator
  rw [Finset.sum_range]
  refine Finset.sum_congr rfl fun k _ => ?_
  unfold termN
  rw [dif_pos k.isLt]
  rfl

end Grid

end Cert.KernelIdeal.RegionSum
end
-- ==== Proof.KernelRun.lean ====
/-
  The idealized kernel program's run, read at its result.

  The frame run leaves every buffer that is not one of the pipeline's arrays at what the host operations after the
  region compute from the region's exit contents: the pipeline's arrays at what the grid wrote back, every other
  buffer as the region found it.  Read at the result buffer this is the host tail applied to that exit valuation;
  the four buffers the tail reads are named here: the region's output array (what the grid accumulated), the
  weight-side input array and the normalised embedding (as the host prefix left them), and the labels (as launched).
-/
import proofs.«411922_j77790447665629_2_alg».proof.Proof.Gen.KernelIdeal.Frame

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Core `c`'s buffer contents at the region's exit: the arrays at what the grid wrote back, the rest as found. -/
abbrev exitVal (c : Dev nD) : Valuation τ sig (Elt F) :=
  Pipeline.withArrays (cfgs 0).spec c (V0 m c) fun w => (dats m 0 c).arrAt w (cfgs 0).N

/-- The region's output array at the exit. -/
theorem exit_v19 (c : Dev nD) : exitVal m c (Proc.devRef .tc main_v19) = (dats m 0 c).arrAt 2 cfg0.N :=
  Pipeline.withArrays_arr spec0 launch0.win.arr_inj c _ _ 2

/-- The weight-side input array at the exit is as the region found it. -/
theorem exit_v18 (c : Dev nD) : exitVal m c (Proc.devRef .tc main_v18) = V m c main_v18 :=
  (Pipeline.withArrays_arr spec0 launch0.win.arr_inj c _ _ 1).trans
    (((dats m 0 c).arrAt_in 1 rfl _).trans (A_eq m c 1))

/-- The embedding-side input array at the exit is as the region found it. -/
theorem exit_v9 (c : Dev nD) : exitVal m c (Proc.devRef .tc main_v9) = V m c main_v9 :=
  (Pipeline.withArrays_arr spec0 launch0.win.arr_inj c _ _ 0).trans
    (((dats m 0 c).arrAt_in 0 rfl _).trans (A_eq m c 0))

/-- The normalised embedding is no array of the pipeline: at the exit it is as the host prefix left it. -/
theorem exit_v8 (c : Dev nD) : exitVal m c (Proc.devRef .tc main_v8) = V m c main_v8 :=
  Pipeline.withArrays_of_ne _ c (V0 m c) _ main_v8 (by exact (by decide : ∀ w, Pipeline.arrRef spec0 w ≠ main_v8))

/-- The labels at the exit are as launched. -/
theorem exit_arg1 (c : Dev nD) : exitVal m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

/-- Every weakly fair execution ends with the result buffer at the host tail of the exit contents, the arguments unchanged. -/
theorem run_result : θ_run defs (onTc (τ := τ) (main (F := F))) ⟨m, fun _ => 0, ρ⟩ (fun r => ∀ c : Dev nD,
      r.2.mem ((c.tc : Thread nD τ).loc main_v54)
        = StableHlo.after (List.flatten [hostOps1, hostOps1_1, hostOps1_2]) (exitVal m c) (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v54 (Pipeline.mem_restRefs_of main_v54 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Run

end
-- ==== Proof.KernelPrefix.lean ====
/-
  The operations of the kernel program before its kernel region: each row of the embedding matrix and of the
  weight matrix is divided by its Euclidean norm (the norm kept above a small positive constant), the result is
  narrowed to the sixteen-bit format, and the embedding is transposed.  The values these operations leave are
  stated as closed terms over the two input matrices; over the extended reals the narrowing is the identity
  and the transposed matrix at (d, n) is the scaled embedding at (n, d).
-/
import proofs.«411922_j77790447665629_2_alg».proof.Proof.Gen.KernelIdeal.Launch
import proofs.«411922_j77790447665629_2_alg».proof.Proof.MarginLoss
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The rows of the embedding scaled to unit length: each entry divided by the larger of its row's norm
    (the square root of the row's sum of squares, summed from zero) and the small positive constant. -/
def unitRowsE (x : FVec F S2048x512 .f32) : FVec F S2048x512 .f32 :=
  Host.divf x
    (broadcastInDim S2048x512 ![0, 1] bcast_S2048x1_S2048x512_0_1
      (maximumf
        (Host.sqrt
          (broadcastInDim S2048x1 ![0] bcast_S2048_S2048x1_0
            (Host.reduceAdd (mulf x x) (constant S_ .f32 0x00000000#32) reducesTo_S2048x512_S2048_d1 h_S_)))
        (broadcastInDim S2048x1 ![] bcast_S_S2048x1 (constant S_ .f32 0x2B8CBCCC#32))))

/-- The rows of the weight matrix scaled to unit length, by the same seven operations. -/
def unitRowsW (x : FVec F S100000x512 .f32) : FVec F S100000x512 .f32 :=
  Host.divf x
    (broadcastInDim S100000x512 ![0, 1] bcast_S100000x1_S100000x512_0_1
      (maximumf
        (Host.sqrt
          (broadcastInDim S100000x1 ![0] bcast_S100000_S100000x1_0
            (Host.reduceAdd (mulf x x) (constant S_ .f32 0x00000000#32) reducesTo_S100000x512_S100000_d1 h_S_)))
        (broadcastInDim S100000x1 ![] bcast_S_S100000x1 (constant S_ .f32 0x2B8CBCCC#32))))

/-- A one-element list of lists flattens to its element. -/
theorem flatten_one : List.flatten [hostOps0 (F := F)] = hostOps0 := List.flatten_singleton

section General

variable (U : Valuation τ sig (Elt F))

/-- The eighth result is the unit-length embedding narrowed to the sixteen-bit format. -/
theorem after_v8 :
    after (hostOps0 (F := F)) U (Proc.devRef .tc main_v8)
      = truncf .bf16 (unitRowsE (U (Proc.devRef .tc main_arg0))) bitsLt_bf16_f32 := by
  unfold hostOps0
  after_results
  rfl

/-- The ninth result is the transpose of the eighth. -/
theorem after_v9 :
    after (hostOps0 (F := F)) U (Proc.devRef .tc main_v9)
      = transpose S512x2048 [1, 0] (truncf .bf16 (unitRowsE (U (Proc.devRef .tc main_arg0))) bitsLt_bf16_f32)
          transposes_S2048x512_S512x2048_1_0 := by
  unfold hostOps0
  after_results
  rfl

/-- The eighteenth result is the unit-length weight matrix narrowed to the sixteen-bit format. -/
theorem after_v18 :
    after (hostOps0 (F := F)) U (Proc.devRef .tc main_v18)
      = truncf .bf16 (unitRowsW (U (Proc.devRef .tc main_arg2))) bitsLt_bf16_f32 := by
  unfold hostOps0
  after_results
  rfl

/-- No operation before the region writes the labels. -/
theorem after_arg1 :
    after (hostOps0 (F := F)) U (Proc.devRef .tc main_arg1) = U (Proc.devRef .tc main_arg1) := by
  unfold hostOps0
  after_results

end General

section AtIdeal

variable (U : Valuation τ sig (Elt Ideal))

/-- Over the extended reals the narrowing is the identity: the eighth result is the unit-length embedding. -/
theorem v8_apply (i : S2048x512.Idx) :
    (after (hostOps0 (F := Ideal)) U (Proc.devRef .tc main_v8) : S2048x512.Idx → EReal) i
      = (unitRowsE (F := Ideal) (U (Proc.devRef .tc main_arg0)) : S2048x512.Idx → EReal) i := by
  rw [after_v8, truncf_apply]

/-- The transpose of a 2048 × 512 matrix reads, at (d, n), the matrix at (n, d). -/
theorem transpose_read (x : FVec Ideal S2048x512 .bf16) (d : Fin 512) (n : Fin 2048) :
    (transpose S512x2048 [1, 0] x transposes_S2048x512_S512x2048_1_0 : S512x2048.Idx → EReal) (ix2 d n) = x (ix2 n d) :=
  transpose_ix2_apply (a := 2048) (b := 512) x transposes_S2048x512_S512x2048_1_0 d n

/-- The transposed matrix at (d, n) is the unit-length embedding at (n, d). -/
theorem v9_apply (d : Fin 512) (n : Fin 2048) :
    (after (hostOps0 (F := Ideal)) U (Proc.devRef .tc main_v9) : S512x2048.Idx → EReal) (ix2 d n)
      = (unitRowsE (F := Ideal) (U (Proc.devRef .tc main_arg0)) : S2048x512.Idx → EReal) (ix2 n d) := by
  rw [after_v9, transpose_read, truncf_apply]

/-- Over the extended reals the eighteenth result is the unit-length weight matrix. -/
theorem v18_apply (i : S100000x512.Idx) :
    (after (hostOps0 (F := Ideal)) U (Proc.devRef .tc main_v18) : S100000x512.Idx → EReal) i
      = (unitRowsW (F := Ideal) (U (Proc.devRef .tc main_arg2)) : S100000x512.Idx → EReal) i := by
  rw [after_v18, truncf_apply]

end AtIdeal

end Cert.KernelIdeal.Prefix

end
-- ==== Proof.KernelTail.lean ====
/-
  The host operations after the kernel region, read as one function of the four buffers they use.

  The region leaves each row's plain softmax denominator at the fixed shift.  The host then finds, per row, the
  weight row the label names (a negative label word is first moved up by the class count, and the row index is
  the word read signed and clamped to the last class), takes the inner product of the row's embedding with it
  from zero, clips it, exchanges the class's plain term in the denominator for its margin-adjusted one, takes
  the logarithm, removes the class's adjusted logit, and averages over the rows.  The three stretches are read
  one at a time, each as a function of the buffers it takes over from the one before, and then at an index over
  the extended reals, where the host sums are finite sums and format changes are the identity.
-/
import proofs.«411922_j77790447665629_2_alg».proof.Proof.Gen.KernelIdeal.Launch
import proofs.«411922_j77790447665629_2_alg».proof.Proof.MarginLoss
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.KernelIdeal.Tail

open Cert.KernelIdeal Cert.KernelIdeal.Gen Cert.MarginLoss Idealize.ShloMosaic Idealize.ShloMosaic.TcCoe Idealize.SL.Sem
  Idealize.ShloMosaic.StableHlo Idealize.ShloMosaic.ValueIdx

variable {F : FTy → Type} [FloatOps F]

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The three stretches as functions of what they read -/

/-- The label words with a negative one moved up by the class count. -/
def wrapped (gt : (⟨S2048, .i32⟩ : BufTy).Contents (Elt F)) : (⟨S2048, .i32⟩ : BufTy).Contents (Elt F) :=
  select (cmpi .slt gt (broadcastInDim S2048 ![] bcast_S_S2048 (constantI S_ 32 0#32)))
    (addi gt (broadcastInDim S2048 ![] bcast_S_S2048 (constantI S_ 32 100000#32))) gt

/-- The weight rows the wrapped labels name, one per row. -/
def gathered (w : (⟨S100000x512, .bf16⟩ : BufTy).Contents (Elt F)) (gt : (⟨S2048, .i32⟩ : BufTy).Contents (Elt F)) :
    (⟨S2048x512, .bf16⟩ : BufTy).Contents (Elt F) :=
  Host.gather gather_S100000x512_S2048x1_S2048x512_1_0_n_n_0_1_1512 w
    (broadcastInDim S2048x1 ![0] bcast_S2048_S2048x1_0 (wrapped (F := F) gt))

/-- Each row's inner product with its class's weight row, summed from zero. -/
def rowDots (e : (⟨S2048x512, .bf16⟩ : BufTy).Contents (Elt F)) (w : (⟨S100000x512, .bf16⟩ : BufTy).Contents (Elt F))
    (gt : (⟨S2048, .i32⟩ : BufTy).Contents (Elt F)) : (⟨S2048, .f32⟩ : BufTy).Contents (Elt F) :=
  Host.reduceAdd (mulf (extf .f32 e bitsLt_bf16_f32) (extf .f32 (gathered w gt) bitsLt_bf16_f32))
    (constant S_ .f32 0x00000000#32) reducesTo_S2048x512_S2048_d1 h_S_

theorem hostOps1_v31 (V : Valuation τ sig (Elt F)) :
    after (hostOps1 (F := F)) V (Proc.devRef .tc main_v31)
      = rowDots (V (Proc.devRef .tc main_v8)) (V (Proc.devRef .tc main_v18)) (V (Proc.devRef .tc main_arg1)) := by
  simp only [hostOps1]
  after_results
  rfl

theorem hostOps1_v20 (V : Valuation τ sig (Elt F)) :
    after (hostOps1 (F := F)) V (Proc.devRef .tc main_v20)
      = shapeCast S2048 (V (Proc.devRef .tc main_v19)) shapeCasts_S1x2048_S2048 := by
  simp only [hostOps1]
  after_results
  rfl

theorem hostOps1_cst_5 (V : Valuation τ sig (Elt F)) :
    after (hostOps1 (F := F)) V (Proc.devRef .tc main_cst_5) = constant S_ .f32 0xBF7FFFFE#32 := by
  simp only [hostOps1]
  after_results

theorem hostOps1_cst_6 (V : Valuation τ sig (Elt F)) :
    after (hostOps1 (F := F)) V (Proc.devRef .tc main_cst_6) = constant S_ .f32 0x3F7FFFFE#32 := by
  simp only [hostOps1]
  after_results

/-- The clip of a row vector between two scalars. -/
def clipV (lo hi : (⟨S_, .f32⟩ : BufTy).Contents (Elt F)) (x : (⟨S2048, .f32⟩ : BufTy).Contents (Elt F)) :
    (⟨S2048, .f32⟩ : BufTy).Contents (Elt F) :=
  minimumf (broadcastInDim S2048 ![] bcast_S_S2048 (id hi)) (maximumf (broadcastInDim S2048 ![] bcast_S_S2048 (id lo)) x)

theorem hostOps1_1_v32 (V : Valuation τ sig (Elt F)) :
    after (hostOps1_1 (F := F)) V (Proc.devRef .tc main_v32)
      = clipV (V (Proc.devRef .tc main_cst_5)) (V (Proc.devRef .tc main_cst_6)) (V (Proc.devRef .tc main_v31)) := by
  simp only [hostOps1_1]
  after_results
  rfl

theorem hostOps1_1_v20 (V : Valuation τ sig (Elt F)) :
    after (hostOps1_1 (F := F)) V (Proc.devRef .tc main_v20) = V (Proc.devRef .tc main_v20) := by
  simp only [hostOps1_1]
  after_results

/-- A scalar constant along the rows. -/
def splat (b : BitVec 32) : (⟨S2048, .f32⟩ : BufTy).Contents (Elt F) :=
  broadcastInDim S2048 ![] bcast_S_S2048 (constant S_ .f32 b)

/-- The scale times the clipped cosine less the margin, per row. -/
def adjLogit (c : (⟨S2048, .f32⟩ : BufTy).Contents (Elt F)) : (⟨S2048, .f32⟩ : BufTy).Contents (Elt F) :=
  mulf (splat (F := F) 0x41F00000#32) (subf c (splat (F := F) 0x3ECCCCCD#32))

/-- Each row's loss from its plain denominator and its class's clipped cosine. -/
def rowTerms (s c : (⟨S2048, .f32⟩ : BufTy).Contents (Elt F)) : (⟨S2048, .f32⟩ : BufTy).Contents (Elt F) :=
  subf
    (addf (splat (F := F) 0x41F00000#32)
      (Host.log (maximumf
        (addf (subf s (Host.exp (subf (mulf (splat (F := F) 0x41F00000#32) c) (splat (F := F) 0x41F00000#32))))
          (Host.exp (subf (adjLogit c) (splat (F := F) 0x41F00000#32))))
        (splat (F := F) 0x0DA24260#32))))
    (adjLogit c)

/-- The mean over the rows: the sum from zero, divided by the row count. -/
def meanV (r : (⟨S2048, .f32⟩ : BufTy).Contents (Elt F)) : (⟨S_, .f32⟩ : BufTy).Contents (Elt F) :=
  Host.divf (Host.reduceAdd r (constant S_ .f32 0x00000000#32) reducesTo_S2048_S_d0 h_S_) (constant S_ .f32 0x45000000#32)

theorem hostOps1_2_v54 (V : Valuation τ sig (Elt F)) :
    after (hostOps1_2 (F := F)) V (Proc.devRef .tc main_v54)
      = meanV (rowTerms (V (Proc.devRef .tc main_v20)) (V (Proc.devRef .tc main_v32))) := by
  simp only [hostOps1_2]
  after_results_simp
  rfl

/-! ## The stretches' functions read at an index, over the extended reals -/

/-- the weight row the gather reads for row j: the label word wrapped when negative, read signed, clamped to the last class -/
def gatherRow (gt : S2048.Idx → BitVec 32) (j : S2048.Idx) : Fin 100000 :=
  ⟨min (Scalar.select (IntOp.cmpi .slt (gt j) 0#32) (IntOp.addi (gt j) 100000#32) (gt j)).toInt.toNat 99999, by omega⟩

theorem rowTerms_apply (s c : S2048.Idx → EReal) (j : S2048.Idx) :
    rowTerms (F := Ideal) s c j = rowLossK (s j) (c j) := rfl

theorem meanV_apply (r : S2048.Idx → EReal) (i : S_.Idx) :
    meanV (F := Ideal) r i = meanLoss r := by
  unfold meanV meanLoss
  show Ideal.div (Host.reduceAdd (F := Ideal) r (constant S_ .f32 0x00000000#32) reducesTo_S2048_S_d0 h_S_ i) kCount = _
  refine congrArg (Ideal.div · kCount) ?_
  simp only [Host.reduceAdd, Ideal.hostReduceAdd_def]
  exact Ideal.hostReduceAdd_total reducesTo_S2048_S_d0 (fun b => b.elim0) r _ i

theorem clipV_apply (lo hi : BitVec 32) (x : S2048.Idx → EReal) (j : S2048.Idx) :
    clipV (F := Ideal) (constant (F := Ideal) S_ .f32 lo) (constant (F := Ideal) S_ .f32 hi) x j
      = min (Ideal.ofBits .f32 hi) (max (Ideal.ofBits .f32 lo) (x j)) := rfl

theorem reshape_apply (s : S1x2048.Idx → EReal) (n : Fin 2048) :
    shapeCast S2048 s shapeCasts_S1x2048_S2048 (ix1 n) = s (ix2 0 n) :=
  shapeCast_apply s shapeCasts_S1x2048_S2048 (ix1 n) (ix2 0 n) (by
    rw [Shape.rowMajor_val_two, Shape.rowMajor_val_one]
    show (0 : Nat) * 2048 + n.val = n.val
    omega)

theorem wrapped_apply (gt : S2048.Idx → BitVec 32) (j : S2048.Idx) :
    wrapped (F := Ideal) gt j
      = Scalar.select (IntOp.cmpi .slt (gt j) 0#32) (IntOp.addi (gt j) 100000#32) (gt j) := rfl

theorem gathered_apply (w : S100000x512.Idx → EReal) (gt : S2048.Idx → BitVec 32) (n : Fin 2048) (d : Fin 512) :
    gathered (F := Ideal) w gt (ix2 n d) = w (ix2 (gatherRow gt (ix1 n)) d) := by
  unfold gathered Host.gather
  refine congrArg w (funext fun a => Fin.ext ?_)
  match a with
  | ⟨0, _⟩ =>
    show gather_S100000x512_S2048x1_S2048x512_1_0_n_n_0_1_1512.start (ix2 n d) _ 0
        + gather_S100000x512_S2048x1_S2048x512_1_0_n_n_0_1_1512.batchCoord (ix2 n d) 0
        + gather_S100000x512_S2048x1_S2048x512_1_0_n_n_0_1_1512.offCoord (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x512_S2048x1_S2048x512_1_0_n_n_0_1_1512.startIndexMap from List.mem_singleton.mpr rfl)]
    have hsi : gather_S100000x512_S2048x1_S2048x512_1_0_n_n_0_1_1512.siIdx (ix2 n d)
        ⟨List.idxOf (0 : Fin 2) gather_S100000x512_S2048x1_S2048x512_1_0_n_n_0_1_1512.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    have hb : broadcastInDim S2048x1 ![0] bcast_S2048_S2048x1_0 (wrapped (F := Ideal) gt) (ix2 n (0 : Fin 1))
        = wrapped (F := Ideal) gt (ix1 n) :=
      broadcastInDim_apply _ bcast_S2048_S2048x1_0 _ (ix2 n (0 : Fin 1)) (ix1 n) (fun a => match a with
        | ⟨0, _⟩ => by show n.val = if (2048 : Nat) = 1 then 0 else n.val; rw [if_neg (by decide)])
    rw [hb]
    rfl
  | ⟨1, _⟩ =>
    show gather_S100000x512_S2048x1_S2048x512_1_0_n_n_0_1_1512.start (ix2 n d) _ 1
        + gather_S100000x512_S2048x1_S2048x512_1_0_n_n_0_1_1512.batchCoord (ix2 n d) 1
        + gather_S100000x512_S2048x1_S2048x512_1_0_n_n_0_1_1512.offCoord (ix2 n d) 1 = d.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl

theorem rowDots_apply (e : S2048x512.Idx → EReal) (w : S100000x512.Idx → EReal) (gt : S2048.Idx → BitVec 32) (n : Fin 2048) :
    rowDots (F := Ideal) e w gt (ix1 n) = kZero + ∑ d : Fin 512, e (ix2 n d) * w (ix2 (gatherRow gt (ix1 n)) d) := by
  unfold rowDots
  have hm : ∀ i : S2048x512.Idx, mulf (F := Ideal) (extf .f32 e bitsLt_bf16_f32) (extf .f32 (gathered (F := Ideal) w gt) bitsLt_bf16_f32) i
      = e i * gathered (F := Ideal) w gt i := fun _ => rfl
  generalize mulf (F := Ideal) (extf .f32 e bitsLt_bf16_f32) (extf .f32 (gathered (F := Ideal) w gt) bitsLt_bf16_f32) = y0 at hm
  simp only [Host.reduceAdd, Ideal.hostReduceAdd_def]
  rw [Ideal.hostReduceAdd_single reducesTo_S2048x512_S2048_d1 (by decide)]
  refine congrArg (_ + ·) (Finset.sum_congr rfl fun k _ => ?_)
  refine (congrArg y0 (funext fun a => Fin.ext (by match a with | ⟨0, _⟩ => rfl | ⟨1, _⟩ => rfl)) : _ = y0 (ix2 n k)).trans ?_
  rw [hm]
  exact congrArg (e (ix2 n k) * ·) (gathered_apply w gt n k)

/-! ## A label below the class count names its own row -/

theorem gatherRow_of_lt (gt : S2048.Idx → BitVec 32) (j : S2048.Idx) (h : (gt j).toNat < 100000) :
    gatherRow gt j = classOf (gt j) h := by
  unfold gatherRow classOf
  refine Fin.ext ?_
  show min (Scalar.select (IntOp.cmpi .slt (gt j) 0#32) (IntOp.addi (gt j) 100000#32) (gt j)).toInt.toNat 99999 = (gt j).toNat
  generalize gt j = w at h
  have hslt : IntOp.cmpi .slt w 0#32 = 0#1 :=
    eq_zero_of_ne_one (fun h1 => by
      have h2 := (Predicate.slt_iff_toNat (a := w) (b := 0#32) (by omega) (by decide)).mp h1
      simp at h2)
  rw [hslt, select_zero]
  have hi : w.toInt = (w.toNat : Int) := BitVec.toInt_eq_toNat_of_lt (by omega)
  rw [hi, Int.toNat_natCast]
  omega

/-! ## The whole tail -/

/-- The value the three stretches leave in the result buffer, from the four buffers they read. -/
theorem tail_value_of (U : Valuation τ sig (Elt Ideal))
    (s : S1x2048.Idx → EReal) (e : S2048x512.Idx → EReal) (w : S100000x512.Idx → EReal) (gt : S2048.Idx → BitVec 32)
    (hs : U (Proc.devRef .tc main_v19) = s) (he : U (Proc.devRef .tc main_v8) = e)
    (hw : U (Proc.devRef .tc main_v18) = w) (hg : U (Proc.devRef .tc main_arg1) = gt) (i : S_.Idx) :
    (after (List.flatten [hostOps1 (F := Ideal), hostOps1_1, hostOps1_2]) U (Proc.devRef .tc main_v54) : S_.Idx → EReal) i
      = meanLoss (fun j => rowLossK (s (ix2 0 (j 0)))
          (clip (kZero + ∑ d : Fin 512, e (ix2 (j 0) d) * w (ix2 (gatherRow gt j) d)))) := by
  simp only [List.flatten_cons, List.flatten_nil, List.append_nil]
  rw [after_append, after_append, hostOps1_2_v54, hostOps1_1_v32, hostOps1_1_v20, hostOps1_v20, hostOps1_v31,
    hostOps1_cst_5, hostOps1_cst_6, hs, he, hw, hg]
  rw [meanV_apply]
  refine congrArg meanLoss (funext fun j => ?_)
  rw [rowTerms_apply]
  obtain ⟨n, rfl⟩ : ∃ n : Fin 2048, j = ix1 n := ⟨j 0, eq_ix1 j⟩
  rw [reshape_apply, clipV_apply, rowDots_apply]
  rfl

/-- The plain denominators, the normalised embeddings, the normalised weights and the label words the tail reads. -/
abbrev denomIn (U : Valuation τ sig (Elt Ideal)) : S1x2048.Idx → EReal := U (Proc.devRef .tc main_v19)
@[inherit_doc denomIn]
abbrev embIn (U : Valuation τ sig (Elt Ideal)) : S2048x512.Idx → EReal := U (Proc.devRef .tc main_v8)
@[inherit_doc denomIn]
abbrev wgtIn (U : Valuation τ sig (Elt Ideal)) : S100000x512.Idx → EReal := U (Proc.devRef .tc main_v18)
@[inherit_doc denomIn]
abbrev lblIn (U : Valuation τ sig (Elt Ideal)) : S2048.Idx → BitVec 32 := U (Proc.devRef .tc main_arg1)

/-- The result buffer after the three stretches: the mean over the rows of each row's loss, from the row's plain
    denominator and the clipped inner product of the row with the weight row its label names. -/
theorem tail_value (U : Valuation τ sig (Elt Ideal)) (i : S_.Idx) :
    (after (List.flatten [hostOps1 (F := Ideal), hostOps1_1, hostOps1_2]) U (Proc.devRef .tc main_v54) : S_.Idx → EReal) i
      = meanLoss (fun j => rowLossK (denomIn U (ix2 0 (j 0)))
          (clip (kZero + ∑ d : Fin 512, embIn U (ix2 (j 0) d) * wgtIn U (ix2 (gatherRow (lblIn U) j) d)))) :=
  tail_value_of U _ _ _ _ rfl rfl rfl rfl i

end Cert.KernelIdeal.Tail

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.LossIdentity.lean ====
/-
  The two forms of a row's margin-softmax loss agree on clipped cosines.

  A clipped cosine is a real number in [-1, 1]; the scale, the margin and the floor are real constants; the
  shift `M` is finite.  So both losses are values of real arithmetic, and the claim is an identity over the
  reals: with `a k = 30 · (r k - μ · δ k)` (`δ` the one-hot row of the class `g`),
  `∑ₖ exp (a k - M) = exp (30 - M) · ∑ₖ exp (a k - 30)`, the second sum is the plain sum
  `∑ₖ exp (30 · r k - 30)` with the term of `g` exchanged, it is at least `exp (-60)` (any other class
  contributes that much) and so lies above the floor, and the logarithm of the product splits.
-/
import proofs.«411922_j77790447665629_2_alg».proof.Proof.MarginLoss
import proofs.«411922_j77790447665629_2_alg».proof.Proof.LibCoe
import Mathlib.Analysis.SpecialFunctions.Log.Basic
import Mathlib.Analysis.Complex.ExponentialBounds
import Mathlib.Algebra.BigOperators.Group.Finset.Basic
import Mathlib.Algebra.Order.BigOperators.Group.Finset
import Mathlib.Tactic.NormNum
import Mathlib.Tactic.Ring
import Mathlib.Tactic.Linarith

noncomputable section

open scoped BigOperators

namespace Cert.MarginLoss

open Idealize.ShloMosaic Cert.LibCoe

/-! ### The constants as real numbers -/

/-- The margin as a real: `(2²³ + 5033165) · 2⁻²⁵`. -/
def marginR : ℝ := 13421773 / 33554432

/-- The floor as a real: `(2²³ + 2245216) · 2⁻¹²³`. -/
def tinyR : ℝ := 10633824 / 2 ^ 123

theorem kZero_eq : kZero = ((0 : ℝ) : EReal) := ofBits_zero

theorem kScale_eq : kScale = ((30 : ℝ) : EReal) := by
  simp [Ideal.ofBits, Ideal.ieee, -EReal.coe_mul]; norm_num

theorem kHi_eq : kHi = (((8388607 / 8388608 : ℝ)) : EReal) := by
  simp [Ideal.ofBits, Ideal.ieee, -EReal.coe_mul]; norm_num

theorem kLo_eq : kLo = (((-8388607 / 8388608 : ℝ)) : EReal) := by
  simp [Ideal.ofBits, Ideal.ieee, -EReal.coe_mul]; norm_num

theorem kMargin_eq : kMargin = ((marginR : ℝ) : EReal) := by
  unfold marginR
  simp [Ideal.ofBits, Ideal.ieee, -EReal.coe_mul]; norm_num

theorem kTiny_eq : kTiny = ((tinyR : ℝ) : EReal) := by
  unfold tinyR
  simp [Ideal.ofBits, Ideal.ieee, -EReal.coe_mul]; norm_num

theorem tinyR_pos : 0 < tinyR := by unfold tinyR; positivity

/-- The floor is below `exp (-60)`: `exp 60 = (exp 1)⁶⁰ < 3⁶⁰` and `10633824 · 3⁶⁰ ≤ 2¹²³`. -/
theorem tinyR_le : tinyR ≤ Real.exp (-60) := by
  have h3 : Real.exp 60 ≤ 3 ^ 60 := by
    have h := pow_le_pow_left₀ (Real.exp_pos 1).le Real.exp_one_lt_three.le 60
    have e : Real.exp 60 = Real.exp 1 ^ 60 := by
      rw [← Real.exp_nat_mul]; norm_num
    rw [e]; exact h
  have hpos : 0 < Real.exp 60 := Real.exp_pos 60
  rw [Real.exp_neg, le_inv_comm₀ (by unfold tinyR; positivity) hpos]
  refine h3.trans ?_
  unfold tinyR
  norm_num

/-! ### The clip -/

theorem clip_real (x : EReal) : ∃ r : ℝ, clip x = (r : EReal) ∧ -1 ≤ r ∧ r ≤ 1 := by
  unfold clip
  rw [kHi_eq, kLo_eq]
  induction x using EReal.rec with
  | bot =>
    refine ⟨-8388607 / 8388608, ?_, by norm_num, by norm_num⟩
    rw [max_eq_left bot_le, min_coe]
    congr 1
    exact min_eq_right (by norm_num)
  | top =>
    refine ⟨8388607 / 8388608, ?_, by norm_num, by norm_num⟩
    rw [max_eq_right le_top, min_eq_left le_top]
  | coe y =>
    refine ⟨min (8388607 / 8388608) (max (-8388607 / 8388608) y), ?_, ?_, ?_⟩
    · rw [max_coe, min_coe]
    · exact le_min (by norm_num) (le_max_of_le_left (by norm_num))
    · exact (min_le_left _ _).trans (by norm_num)

/-! ### The identity over the reals -/

/-- Both losses over the reals.  `r` are the clipped cosines, `g` the class, `j` any other class, `μ` the
    margin, `Mr` the shift, `τ` the floor. -/
theorem rowLoss_real {C : ℕ} (r : Fin C → ℝ) (g j : Fin C) (hj : j ≠ g) (μ Mr τ : ℝ)
    (hr : ∀ k, -1 ≤ r k) (hτ : τ ≤ Real.exp (-60)) :
    -((30 * (r g - μ * (if g = g then (1 : ℝ) else 0)) - Mr)
        - Real.log (0 + ∑ k, Real.exp (30 * (r k - μ * (if k = g then (1 : ℝ) else 0)) - Mr)))
      = (30 + Real.log (max ((∑ k, Real.exp (30 * r k - 30)) - Real.exp (30 * r g - 30)
            + Real.exp (30 * (r g - μ) - 30)) τ)) - 30 * (r g - μ)
    ∧ 0 < 0 + ∑ k, Real.exp (30 * (r k - μ * (if k = g then (1 : ℝ) else 0)) - Mr) := by
  -- the sum at the fixed shift, with the margin applied at the class
  set S : ℝ := ∑ k, Real.exp (30 * (r k - μ * (if k = g then (1 : ℝ) else 0)) - 30) with hS
  -- the shift comes out of the sum as a factor
  have hshift : ∑ k, Real.exp (30 * (r k - μ * (if k = g then (1 : ℝ) else 0)) - Mr)
      = Real.exp (30 - Mr) * S := by
    rw [hS, Finset.mul_sum]
    refine Finset.sum_congr rfl fun k _ => ?_
    rw [← Real.exp_add]; congr 1; ring
  -- the sum is the plain sum with the class's term exchanged
  have hsplit : S = (∑ k, Real.exp (30 * r k - 30)) - Real.exp (30 * r g - 30)
      + Real.exp (30 * (r g - μ) - 30) := by
    rw [hS, ← Finset.add_sum_erase Finset.univ _ (Finset.mem_univ g),
      ← Finset.add_sum_erase Finset.univ (fun k => Real.exp (30 * r k - 30)) (Finset.mem_univ g)]
    have herase : ∑ k ∈ Finset.univ.erase g,
          Real.exp (30 * (r k - μ * (if k = g then (1 : ℝ) else 0)) - 30)
        = ∑ k ∈ Finset.univ.erase g, Real.exp (30 * r k - 30) := by
      refine Finset.sum_congr rfl fun k hk => ?_
      rw [if_neg (Finset.ne_of_mem_erase hk), mul_zero, sub_zero]
    rw [herase, if_pos rfl, mul_one]; ring
  -- another class alone contributes at least exp (-60)
  have hlow : Real.exp (-60) ≤ S := by
    have hterm : Real.exp (-60) ≤ Real.exp (30 * (r j - μ * (if j = g then (1 : ℝ) else 0)) - 30) := by
      rw [if_neg hj, mul_zero, sub_zero]
      exact Real.exp_le_exp.mpr (by linarith [hr j])
    refine hterm.trans ?_
    rw [hS]
    exact Finset.single_le_sum (f := fun k => Real.exp (30 * (r k - μ * (if k = g then (1 : ℝ) else 0)) - 30))
      (fun k _ => (Real.exp_pos _).le) (Finset.mem_univ j)
  have hSpos : 0 < S := (Real.exp_pos _).trans_le hlow
  have hmax : max S τ = S := max_eq_left (hτ.trans hlow)
  refine ⟨?_, ?_⟩
  · rw [← hsplit, hmax, zero_add, hshift, Real.log_mul (Real.exp_pos _).ne' hSpos.ne', Real.log_exp,
      if_pos rfl, mul_one]
    ring
  · rw [zero_add, hshift]
    exact mul_pos (Real.exp_pos _) hSpos

/-! ### The logit on clipped cosines -/

/-- The one-hot row as coerced reals. -/
theorem oneHot_coe (g k : Fin 100000) :
    (if k = g then ((1 : ℝ) : EReal) else ((0 : ℝ) : EReal)) = ((if k = g then (1 : ℝ) else 0 : ℝ) : EReal) := by
  split_ifs <;> rfl

/-- The logit of coerced reals is the coerced real logit. -/
theorem logit_coe (r d : Fin 100000 → ℝ) (k : Fin 100000) :
    logit (fun k => (r k : EReal)) (fun k => (d k : EReal)) k = ((30 * (r k - marginR * d k) : ℝ) : EReal) := by
  unfold logit
  rw [kScale_eq, kMargin_eq, mul_coe, sub_coe, mul_coe]

theorem logit_real (a : Fin 100000 → EReal) (g : Fin 100000) (h : Fin 100000 → EReal)
    (hh : ∀ k, h k = if k = g then ((1 : ℝ) : EReal) else ((0 : ℝ) : EReal)) (k : Fin 100000) :
    ∃ r : ℝ, logit (fun k => clip (a k)) h k = (r : EReal) := by
  choose r hr _ _ using fun k => clip_real (a k)
  have hc : (fun k => clip (a k)) = fun k => (r k : EReal) := funext hr
  have hd : h = fun k => ((if k = g then (1 : ℝ) else 0 : ℝ) : EReal) :=
    funext fun k => (hh k).trans (oneHot_coe g k)
  rw [hc, hd, logit_coe]
  exact ⟨_, rfl⟩

/-! ### The two losses agree -/

theorem rowLoss_eq (a : Fin 100000 → EReal) (g : Fin 100000) (h : Fin 100000 → EReal)
    (hh : ∀ k, h k = if k = g then ((1 : ℝ) : EReal) else ((0 : ℝ) : EReal)) (M : EReal) (hM : ⊥ < M) (hM' : M < ⊤) :
    rowLossR (fun k => clip (a k)) h g M = rowLossK (plainDenominator fun k => clip (a k)) (clip (a g)) := by
  unfold rowLossR rowLossK plainDenominator
  -- the clipped cosines, the one-hot row and the shift are coerced reals
  choose r hr hlo _ using fun k => clip_real (a k)
  have hc : (fun k => clip (a k)) = fun k => (r k : EReal) := funext hr
  have hd : h = fun k => ((if k = g then (1 : ℝ) else 0 : ℝ) : EReal) :=
    funext fun k => (hh k).trans (oneHot_coe g k)
  obtain ⟨Mr, rfl⟩ : ∃ Mr : ℝ, M = (Mr : EReal) := ⟨M.toReal, (EReal.coe_toReal hM'.ne hM.ne').symm⟩
  -- another class than g
  obtain ⟨j, hj⟩ : ∃ j : Fin 100000, j ≠ g := by
    by_cases h0 : g = 0
    · exact ⟨1, by rw [h0]; decide⟩
    · exact ⟨0, fun e => h0 e.symm⟩
  obtain ⟨hid, hpos⟩ := rowLoss_real r g j hj marginR Mr tinyR hlo tinyR_le
  have hmaxpos : 0 < max ((∑ k, Real.exp (30 * r k - 30)) - Real.exp (30 * r g - 30)
      + Real.exp (30 * (r g - marginR) - 30)) tinyR := lt_max_of_lt_right tinyR_pos
  rw [hc, hd, hr g]
  simp only [logit_coe]
  rw [kZero_eq, kScale_eq, kMargin_eq, kTiny_eq]
  simp only [sub_coe, mul_coe, exp_coe, sum_coe, add_coe, max_coe]
  rw [log_coe_pos hpos, log_coe_pos hmaxpos]
  simp only [sub_coe, add_coe, neg_coe]
  simp only [eq_self_iff_true, if_true] at hid ⊢
  rw [hid]

end Cert.MarginLoss

end
-- ==== Proof.KernelValue.lean ====
/-
  The idealized kernel program's result as the mean row loss.

  The host operations before the region scale the rows of the two matrices to unit length; the region leaves, per
  row of the embedding, the plain softmax denominator (taken here as a hypothesis on the output array) over all classes of the clipped inner products with the
  weight rows; the host operations after it exchange the label's term and average.  Put together, the result
  buffer holds the mean over the rows of `rowLossK` at the row's plain denominator and at the clipped cosine of
  the row with the weight row its label names — the inner products written with the factors in the order of the
  cosine (the product of two extended reals commutes), the tail's sum from zero with the zero dropped.
-/
import proofs.«411922_j77790447665629_2_alg».proof.Proof.KernelRun
import proofs.«411922_j77790447665629_2_alg».proof.Proof.KernelPrefix
import proofs.«411922_j77790447665629_2_alg».proof.Proof.KernelTail
import proofs.«411922_j77790447665629_2_alg».proof.Proof.LossIdentity

noncomputable section

namespace Cert.KernelIdeal.Result

open Cert.KernelIdeal Cert.KernelIdeal.Gen Cert.MarginLoss Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A buffer as the region finds it is the host prefix applied to the launch contents. -/
theorem V_eq (c : Dev nD) (b : Ref sig .tc) :
    V m c b = after (hostOps0 (F := Ideal)) (fun b => m (c, b)) (Proc.devRef .tc b) := by
  show after (List.flatten [hostOps0]) _ _ = _
  rw [Prefix.flatten_one]

/-- The embedding's rows at unit length. -/
abbrev unitE (c : Dev nD) : S2048x512.Idx → EReal :=
  Prefix.unitRowsE (F := Ideal) (m ((c : Thread nD τ).loc main_arg0))
/-- The weight's rows at unit length. -/
abbrev unitW (c : Dev nD) : S100000x512.Idx → EReal :=
  Prefix.unitRowsW (F := Ideal) (m ((c : Thread nD τ).loc main_arg2))

/-- The region's output array after the grid. -/
abbrev outArr (c : Dev nD) : S1x2048.Idx → EReal := (dats m 0 c).arrAt 2 cfg0.N
/-- The transposed embedding as the region finds it. -/
abbrev regE (c : Dev nD) : S512x2048.Idx → EReal := V m c main_v9
/-- The weight matrix as the region finds it. -/
abbrev regW (c : Dev nD) : S100000x512.Idx → EReal := V m c main_v18
/-- The embedding before its transposition, as the host prefix leaves it. -/
abbrev emb8 (c : Dev nD) : S2048x512.Idx → EReal := V m c main_v8
/-- The label words as launched. -/
abbrev labels (c : Dev nD) : S2048.Idx → BitVec 32 := m ((c : Thread nD τ).loc main_arg1)

theorem emb8_apply (c : Dev nD) (i : S2048x512.Idx) : emb8 m c i = unitE m c i := by
  show (V m c main_v8 : S2048x512.Idx → EReal) i = _
  rw [V_eq]; exact Prefix.v8_apply _ i
theorem regE_apply (c : Dev nD) (d : Fin 512) (n : Fin 2048) : regE m c (ix2 d n) = unitE m c (ix2 n d) := by
  show (V m c main_v9 : S512x2048.Idx → EReal) (ix2 d n) = _
  rw [V_eq]; exact Prefix.v9_apply _ d n
theorem regW_apply (c : Dev nD) (i : S100000x512.Idx) : regW m c i = unitW m c i := by
  show (V m c main_v18 : S100000x512.Idx → EReal) i = _
  rw [V_eq]; exact Prefix.v18_apply _ i

/-- One row: the region's column sum is the plain denominator of the row's clipped cosines, and the tail's inner
    product with the weight row `g` is the row's cosine with class `g`. -/
theorem row_value (c : Dev nD)
    (hregion : ∀ n : Fin 2048, outArr m c (ix2 0 n)
      = plainDenominator (fun k => clip (∑ d : Fin 512, regW m c (ix2 k d) * regE m c (ix2 d n))))
    (n : Fin 2048) (g : Fin 100000) :
    rowLossK (outArr m c (ix2 0 n)) (clip (kZero + ∑ d : Fin 512, emb8 m c (ix2 n d) * regW m c (ix2 g d)))
      = rowLossK (plainDenominator fun k => clip (cosine (unitE m c) (unitW m c) n k))
          (clip (cosine (unitE m c) (unitW m c) n g)) := by
  have hA : outArr m c (ix2 0 n) = plainDenominator fun k => clip (cosine (unitE m c) (unitW m c) n k) := by
    rw [hregion]
    unfold plainDenominator
    refine Finset.sum_congr rfl fun k _ => ?_
    have hc : (∑ d : Fin 512, regW m c (ix2 k d) * regE m c (ix2 d n)) = cosine (unitE m c) (unitW m c) n k := by
      unfold cosine
      refine Finset.sum_congr rfl fun d _ => ?_
      rw [regW_apply, regE_apply, mul_comm]
    show Ideal.exp (kScale * clip (∑ d : Fin 512, regW m c (ix2 k d) * regE m c (ix2 d n)) - kScale) = _
    rw [hc]
  have hB : (kZero + ∑ d : Fin 512, emb8 m c (ix2 n d) * regW m c (ix2 g d)) = cosine (unitE m c) (unitW m c) n g := by
    unfold cosine
    rw [kZero_eq, EReal.coe_zero, zero_add]
    refine Finset.sum_congr rfl fun d _ => ?_
    rw [emb8_apply, regW_apply]
  rw [hA, hB]

/-- The result buffer holds the mean row loss of the unit-length matrices at the labels' classes. -/
theorem result_value (c : Dev nD)
    (hregion : ∀ n : Fin 2048, outArr m c (ix2 0 n)
      = plainDenominator (fun k => clip (∑ d : Fin 512, regW m c (ix2 k d) * regE m c (ix2 d n))))
    (hgt : ∀ j : S2048.Idx, (labels m c j).toNat < 100000) (i : S_.Idx) :
    (after (List.flatten [hostOps1 (F := Ideal), hostOps1_1, hostOps1_2]) (Run.exitVal m c) (Proc.devRef .tc main_v54) : S_.Idx → EReal) i
      = meanLoss (fun j => rowLossK
          (plainDenominator fun k => clip (cosine (unitE m c) (unitW m c) (j 0) k))
          (clip (cosine (unitE m c) (unitW m c) (j 0) (classOf (labels m c j) (hgt j))))) := by
  have h1 := Tail.tail_value_of (Run.exitVal m c) (outArr m c) (emb8 m c) (regW m c) (labels m c)
    (Run.exit_v19 m c) (Run.exit_v8 m c) (Run.exit_v18 m c) (Run.exit_arg1 m c) i
  rw [h1]
  refine congrArg meanLoss (funext fun j => ?_)
  rw [Tail.gatherRow_of_lt (labels m c) j (hgt j)]
  exact row_value m c hregion (j 0) (classOf (labels m c j) (hgt j))

end Cert.KernelIdeal.Result

end
-- ==== Proof.KernelPrefixRef.lean ====
/-
  The reference program scales the rows of the embedding and of the weight matrix to unit length by the same seven
  operations as the kernel program does before its region: the two programs' terms are the same operations over
  proofs of the same propositions about the same shapes, so they are equal.
-/
import proofs.«411922_j77790447665629_2_alg».proof.Proof.KernelPrefix
import proofs.«411922_j77790447665629_2_alg».proof.Proof.RefStages

noncomputable section

namespace Cert.KernelIdeal.Prefix

open Idealize.ShloMosaic

/-- The unit-length embedding of the kernel program is the reference program's seventh result. -/
theorem unitRowsE_eq_ref (x : (⟨2, ![2048, 512]⟩ : Shape).Idx → EReal) :
    (unitRowsE (F := Ideal) x : _ → EReal) = Cert.ReferenceIdeal.Stages.val_main_v7 (F := Ideal) x := by
  unfold unitRowsE Cert.ReferenceIdeal.Stages.val_main_v7 Cert.ReferenceIdeal.Stages.val_main_v6
    Cert.ReferenceIdeal.Stages.val_main_v5 Cert.ReferenceIdeal.Stages.val_main_v4 Cert.ReferenceIdeal.Stages.val_main_v3
    Cert.ReferenceIdeal.Stages.val_main_v2 Cert.ReferenceIdeal.Stages.val_main_v1 Cert.ReferenceIdeal.Stages.val_main_v0
    Cert.ReferenceIdeal.Stages.val_main_cst Cert.ReferenceIdeal.Stages.val_main_cst_0
  rfl

/-- The unit-length weight matrix of the kernel program is the reference program's fifteenth result. -/
theorem unitRowsW_eq_ref (x : (⟨2, ![100000, 512]⟩ : Shape).Idx → EReal) :
    (unitRowsW (F := Ideal) x : _ → EReal) = Cert.ReferenceIdeal.Stages.val_main_v15 (F := Ideal) x := by
  unfold unitRowsW Cert.ReferenceIdeal.Stages.val_main_v15 Cert.ReferenceIdeal.Stages.val_main_v14
    Cert.ReferenceIdeal.Stages.val_main_v13 Cert.ReferenceIdeal.Stages.val_main_v12 Cert.ReferenceIdeal.Stages.val_main_v11
    Cert.ReferenceIdeal.Stages.val_main_v10 Cert.ReferenceIdeal.Stages.val_main_v9 Cert.ReferenceIdeal.Stages.val_main_v8
    Cert.ReferenceIdeal.Stages.val_main_cst_1 Cert.ReferenceIdeal.Stages.val_main_cst_2
  rfl

end Cert.KernelIdeal.Prefix

end
-- ==== Proof.RefValue.lean ====
/- The reference program's run, read back one stretch at a time.

   The reference @main is a straight line of 87 host operations.  Its final buffer contents are the fold of the
   operations over the launch contents.  The line is cut into four consecutive stretches (normalisation of the two
   operands; the clipped, margin-adjusted, scaled logits; the log-softmax; the gather, negation and mean).  A fold over
   a concatenation is the fold of the second part over the fold of the first, so the value left in the result buffer
   is obtained stretch by stretch: each stretch, started from ANY contents that hold the earlier stage values at the
   buffers it reads, leaves the next stage value at the buffer it writes, and leaves every buffer it does not write
   as it found it. -/
import proofs.«411922_j77790447665629_2_alg».proof.Proof.RefRun
import proofs.«411922_j77790447665629_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold of a concatenated line is the fold of its second part over the fold of its first. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The first stretch: each operand's rows divided by their Euclidean norm (bounded below), the second operand then transposed. -/
abbrev ops1 : List (HloOp τ sig (Elt F)) :=
  [ binary main_arg0 main_arg0 main_v0 (mulf : (⟨S2048x512, .f32⟩ : BufTy).Contents (Elt F) → (⟨S2048x512, .f32⟩ : BufTy).Contents (Elt F) → (⟨S2048x512, .f32⟩ : BufTy).Contents (Elt F)),
    nullary main_cst (constant S_ .f32 0x00000000#32),
    binary main_v0 main_cst main_v1 ((fun x v => Host.reduceAdd x v reducesTo_S2048x512_S2048_d1 h_S_) : (⟨S2048x512, .f32⟩ : BufTy).Contents (Elt F) → (⟨S_, .f32⟩ : BufTy).Contents (Elt F) → (⟨S2048, .f32⟩ : BufTy).Contents (Elt F)),
    unary main_v1 main_v2 (broadcastInDim S2048x1 ![0] bcast_S2048_S2048x1_0 : (⟨S2048, .f32⟩ : BufTy).Contents (Elt F) → (⟨S2048x1, .f32⟩ : BufTy).Contents (Elt F)),
    unary main_v2 main_v3 (Host.sqrt : (⟨S2048x1, .f32⟩ : BufTy).Contents (Elt F) → (⟨S2048x1, .f32⟩ : BufTy).Contents (Elt F)),
    nullary main_cst_0 (constant S_ .f32 0x2B8CBCCC#32),
    unary main_cst_0 main_v4 (broadcastInDim S2048x1 ![] bcast_S_S2048x1 : (⟨S_, .f32⟩ : BufTy).Contents (Elt F) → (⟨S2048x1, .f32⟩ : BufTy).Contents (Elt F)),
    binary main_v3 main_v4 main_v5 (maximumf : (⟨S2048x1, .f32⟩ : BufTy).Contents (Elt F) → (⟨S2048x1, .f32⟩ : BufTy).Contents (Elt F) → (⟨S2048x1, .f32⟩ : BufTy).Contents (Elt F)),
    unary main_v5 main_v6 (broadcastInDim S2048x512 ![0, 1] bcast_S2048x1_S2048x512_0_1 : (⟨S2048x1, .f32⟩ : BufTy).Contents (Elt F) → (⟨S2048x512, .f32⟩ : BufTy).Contents (Elt F)),
    binary main_arg0 main_v6 main_v7 (Host.divf : (⟨S2048x512, .f32⟩ : BufTy).Contents (Elt F) → (⟨S2048x512, .f32⟩ : BufTy).Contents (Elt F) → (⟨S2048x512, .f32⟩ : BufTy).Contents (Elt F)),
    binary main_arg2 main_arg2 main_v8 (mulf : (⟨S100000x512, .f32⟩ : BufTy).Contents (Elt F) → (⟨S100000x512, .f32⟩ : BufTy).Contents (Elt F) → (⟨S100000x512, .f32⟩ : BufTy).Contents (Elt F)),
    nullary main_cst_1 (constant S_ .f32 0x00000000#32),
    binary main_v8 main_cst_1 main_v9 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (Host.sqrt : (⟨S100000x1, .f32⟩ : BufTy).Contents (Elt F) → (⟨S100000x1, .f32⟩ : BufTy).Contents (Elt F)),
    nullary main_cst_2 (constant S_ .f32 0x2B8CBCCC#32),
    unary main_cst_2 main_v12 (broadcastInDim S100000x1 ![] bcast_S_S100000x1 : (⟨S_, .f32⟩ : BufTy).Contents (Elt F) → (⟨S100000x1, .f32⟩ : BufTy).Contents (Elt F)),
    binary main_v11 main_v12 main_v13 (maximumf : (⟨S100000x1, .f32⟩ : BufTy).Contents (Elt F) → (⟨S100000x1, .f32⟩ : BufTy).Contents (Elt F) → (⟨S100000x1, .f32⟩ : BufTy).Contents (Elt F)),
    unary main_v13 main_v14 (broadcastInDim S100000x512 ![0, 1] bcast_S100000x1_S100000x512_0_1 : (⟨S100000x1, .f32⟩ : BufTy).Contents (Elt F) → (⟨S100000x512, .f32⟩ : BufTy).Contents (Elt F)),
    binary main_arg2 main_v14 main_v15 (Host.divf : (⟨S100000x512, .f32⟩ : BufTy).Contents (Elt F) → (⟨S100000x512, .f32⟩ : BufTy).Contents (Elt F) → (⟨S100000x512, .f32⟩ : BufTy).Contents (Elt F)),
    unary main_v15 main_v16 ((transpose S512x100000 [1, 0] · transposes_S100000x512_S512x100000_1_0) : (⟨S100000x512, .f32⟩ : BufTy).Contents (Elt F) → (⟨S512x100000, .f32⟩ : BufTy).Contents (Elt F)) ]

/-- The second stretch: the product of the normalised operands, clipped, less the margin at the label's column, times the scale. -/
abbrev ops2 : List (HloOp τ sig (Elt F)) :=
  [ binary main_v7 main_v16 main_v17 ((fun l r => Host.dotGeneral dot_S2048x512_S512x100000_S2048x100000_1_0_0_1_n_n none l r) : (⟨S2048x512, .f32⟩ : BufTy).Contents (Elt F) → (⟨S512x100000, .f32⟩ : BufTy).Contents (Elt F) → (⟨S2048x100000, .f32⟩ : BufTy).Contents (Elt F)),
    nullary main_cst_3 (constant S_ .f32 0xBF7FFFFE#32),
    nullary main_cst_4 (constant S_ .f32 0x3F7FFFFE#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S2048x100000, .f32⟩) main_call0_v1) (broadcastInDim S2048x100000 ![] bcast_S_S2048x100000),
    TRef.binary (TRef.of (T := ⟨S2048x100000, .f32⟩) main_call0_v1) (TRef.of (T := ⟨S2048x100000, .f32⟩) main_v17) (TRef.of (T := ⟨S2048x100000, .f32⟩) main_call0_v2) maximumf,
    TRef.unary (TRef.of (T := ⟨S_, .f32⟩) main_cst_4) (TRef.of (T := ⟨S_, .f32⟩) main_call0_v3) id,
    TRef.unary (TRef.of (T := ⟨S_, .f32⟩) main_call0_v3) (TRef.of (T := ⟨S2048x100000, .f32⟩) main_call0_v4) (broadcastInDim S2048x100000 ![] bcast_S_S2048x100000),
    TRef.binary (TRef.of (T := ⟨S2048x100000, .f32⟩) main_call0_v4) (TRef.of (T := ⟨S2048x100000, .f32⟩) main_call0_v2) (TRef.of (T := ⟨S2048x100000, .f32⟩) main_v18) minimumf,
    TRef.unary (TRef.of (T := ⟨S2048, .i32⟩) main_arg1) (TRef.of (T := ⟨S2048x1, .i32⟩) main_call1_v0) (broadcastInDim S2048x1 ![0] bcast_S2048_S2048x1_0),
    TRef.nullary (TRef.of (T := ⟨S1x100000, .i32⟩) main_call1_v1) (iotaInDim S1x100000 32 1),
    TRef.unary (TRef.of (T := ⟨S2048x1, .i32⟩) main_call1_v0) (TRef.of (T := ⟨S2048x100000, .i32⟩) main_call1_v2) (broadcastInDim S2048x100000 ![0, 1] bcast_S2048x1_S2048x100000_0_1),
    TRef.unary (TRef.of (T := ⟨S1x100000, .i32⟩) main_call1_v1) (TRef.of (T := ⟨S2048x100000, .i32⟩) main_call1_v3) (broadcastInDim S2048x100000 ![0, 1] bcast_S1x100000_S2048x100000_0_1),
    TRef.binary (TRef.of (T := ⟨S2048x100000, .i32⟩) main_call1_v2) (TRef.of (T := ⟨S2048x100000, .i32⟩) main_call1_v3) (TRef.of (T := ⟨S2048x100000, .i1⟩) main_call1_v4) (cmpi .eq),
    TRef.unary (TRef.of (T := ⟨S2048x100000, .i1⟩) main_call1_v4) (TRef.of (T := ⟨S2048x100000, .f32⟩) main_v19) (uitofp .f32),
    nullary main_cst_5 (constant S_ .f32 0x3ECCCCCD#32),
    unary main_cst_5 main_v20 (broadcastInDim S2048x100000 ![] bcast_S_S2048x100000 : (⟨S_, .f32⟩ : BufTy).Contents (Elt F) → (⟨S2048x100000, .f32⟩ : BufTy).Contents (Elt F)),
    binary main_v20 main_v19 main_v21 (mulf : (⟨S2048x100000, .f32⟩ : BufTy).Contents (Elt F) → (⟨S2048x100000, .f32⟩ : BufTy).Contents (Elt F) → (⟨S2048x100000, .f32⟩ : BufTy).Contents (Elt F)),
    binary main_v18 main_v21 main_v22 (subf : (⟨S2048x100000, .f32⟩ : BufTy).Contents (Elt F) → (⟨S2048x100000, .f32⟩ : BufTy).Contents (Elt F) → (⟨S2048x100000, .f32⟩ : BufTy).Contents (Elt F)),
    nullary main_cst_6 (constant S_ .f32 0x41F00000#32),
    unary main_cst_6 main_v23 (broadcastInDim S2048x100000 ![] bcast_S_S2048x100000 : (⟨S_, .f32⟩ : BufTy).Contents (Elt F) → (⟨S2048x100000, .f32⟩ : BufTy).Contents (Elt F)),
    binary main_v23 main_v22 main_v24 (mulf : (⟨S2048x100000, .f32⟩ : BufTy).Contents (Elt F) → (⟨S2048x100000, .f32⟩ : BufTy).Contents (Elt F) → (⟨S2048x100000, .f32⟩ : BufTy).Contents (Elt F)) ]

/-- The third stretch: the row-wise log-softmax of the scaled logits. -/
abbrev ops3 : List (HloOp τ sig (Elt F)) :=
  [ TRef.nullary (TRef.of (T := ⟨S_, .f32⟩) main_call2_cst) (constant S_ .f32 0xFF800000#32),
    TRef.binary (TRef.of (T := ⟨S2048x100000, .f32⟩) main_v24) (TRef.of (T := ⟨S_, .f32⟩) main_call2_cst) (TRef.of (T := ⟨S2048, .f32⟩) main_call2_v0) (fun x v => Host.reduce FloatOps.maximumf x v reducesTo_S2048x100000_S2048_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S2048, .f32⟩) main_call2_v1) (broadcastInDim S2048 ![] bcast_S_S2048),
    TRef.binary (TRef.of (T := ⟨S2048, .f32⟩) main_call2_v1) (TRef.of (T := ⟨S2048, .f32⟩) main_call2_v0) (TRef.of (T := ⟨S2048, .f32⟩) main_call2_v2) maximumf,
    TRef.unary (TRef.of (T := ⟨S2048, .f32⟩) main_call2_v2) (TRef.of (T := ⟨S2048x1, .f32⟩) main_call2_v3) (broadcastInDim S2048x1 ![0] bcast_S2048_S2048x1_0),
    TRef.unary (TRef.of (T := ⟨S2048x1, .f32⟩) main_call2_v3) (TRef.of (T := ⟨S2048x100000, .f32⟩) main_call2_v4) (broadcastInDim S2048x100000 ![0, 1] bcast_S2048x1_S2048x100000_0_1),
    TRef.binary (TRef.of (T := ⟨S2048x100000, .f32⟩) main_v24) (TRef.of (T := ⟨S2048x100000, .f32⟩) main_call2_v4) (TRef.of (T := ⟨S2048x100000, .f32⟩) main_call2_v5) subf,
    TRef.unary (TRef.of (T := ⟨S2048x100000, .f32⟩) main_call2_v5) (TRef.of (T := ⟨S2048x100000, .f32⟩) main_call2_v6) Host.exp,
    TRef.nullary (TRef.of (T := ⟨S_, .f32⟩) main_call2_cst_1) (constant S_ .f32 0x00000000#32),
    TRef.binary (TRef.of (T := ⟨S2048x100000, .f32⟩) main_call2_v6) (TRef.of (T := ⟨S_, .f32⟩) main_call2_cst_1) (TRef.of (T := ⟨S2048, .f32⟩) main_call2_v7) (fun x v => Host.reduceAdd x v reducesTo_S2048x100000_S2048_d1 h_S_),
    TRef.unary (TRef.of (T := ⟨S2048, .f32⟩) main_call2_v7) (TRef.of (T := ⟨S2048x1, .f32⟩) main_call2_v8) (broadcastInDim S2048x1 ![0] bcast_S2048_S2048x1_0),
    TRef.unary (TRef.of (T := ⟨S2048x1, .f32⟩) main_call2_v8) (TRef.of (T := ⟨S2048x1, .f32⟩) main_call2_v9) Host.log,
    TRef.unary (TRef.of (T := ⟨S2048x1, .f32⟩) main_call2_v9) (TRef.of (T := ⟨S2048x100000, .f32⟩) main_call2_v10) (broadcastInDim S2048x100000 ![0, 1] bcast_S2048x1_S2048x100000_0_1),
    TRef.binary (TRef.of (T := ⟨S2048x100000, .f32⟩) main_call2_v5) (TRef.of (T := ⟨S2048x100000, .f32⟩) main_call2_v10) (TRef.of (T := ⟨S2048x100000, .f32⟩) main_v25) subf ]

/-- The fourth stretch: the log-probability at each row's label, negated, summed over the rows and divided by their number. -/
abbrev ops4 : List (HloOp τ sig (Elt F)) :=
  [ unary main_arg1 main_v26 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S2048x1, .i32⟩) main_call3_v0) (broadcastInDim S2048x1 ![] bcast_S_S2048x1),
    TRef.binary (TRef.of (T := ⟨S2048x1, .i32⟩) main_v26) (TRef.of (T := ⟨S2048x1, .i32⟩) main_call3_v0) (TRef.of (T := ⟨S2048x1, .i1⟩) main_call3_v1) (cmpi .slt),
    TRef.nullary (TRef.of (T := ⟨S_, .i32⟩) main_call3_c_0) (constantI S_ 32 100000#32),
    TRef.unary (TRef.of (T := ⟨S_, .i32⟩) main_call3_c_0) (TRef.of (T := ⟨S2048x1, .i32⟩) main_call3_v2) (broadcastInDim S2048x1 ![] bcast_S_S2048x1),
    TRef.binary (TRef.of (T := ⟨S2048x1, .i32⟩) main_v26) (TRef.of (T := ⟨S2048x1, .i32⟩) main_call3_v2) (TRef.of (T := ⟨S2048x1, .i32⟩) main_call3_v3) addi,
    TRef.ternary (TRef.of (T := ⟨S2048x1, .i1⟩) main_call3_v1) (TRef.of (T := ⟨S2048x1, .i32⟩) main_call3_v3) (TRef.of (T := ⟨S2048x1, .i32⟩) main_v26) (TRef.of (T := ⟨S2048x1, .i32⟩) main_call3_v4) select,
    TRef.reshape (TRef.of (T := ⟨S2048x1, .i32⟩) main_call3_v4) (TRef.of (T := ⟨S2048x1x1, .i32⟩) main_call3_v5) rfl shapeCasts_S2048x1_S2048x1x1,
    TRef.nullary (TRef.of (T := ⟨S1, .i32⟩) main_call3_c_1) (constantI S1 32 99999#32),
    TRef.nullary (TRef.of (T := ⟨S_, .i32⟩) main_call3_c_2) (constantI S_ 32 0#32),
    TRef.unary (TRef.of (T := ⟨S_, .i32⟩) main_call3_c_2) (TRef.of (T := ⟨S2048x1x1, .i32⟩) main_call3_v6) (broadcastInDim S2048x1x1 ![] bcast_S_S2048x1x1),
    TRef.binary (TRef.of (T := ⟨S2048x1x1, .i32⟩) main_call3_v5) (TRef.of (T := ⟨S2048x1x1, .i32⟩) main_call3_v6) (TRef.of (T := ⟨S2048x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S2048x1x1, .i32⟩) main_call3_v9) (broadcastInDim S2048x1x1 ![0, 1, 2] bcast_S1x1x1_S2048x1x1_0_1_2),
    TRef.binary (TRef.of (T := ⟨S2048x1x1, .i32⟩) main_call3_v5) (TRef.of (T := ⟨S2048x1x1, .i32⟩) main_call3_v9) (TRef.of (T := ⟨S2048x1x1, .i1⟩) main_call3_v10) (cmpi .sle),
    TRef.binary (TRef.of (T := ⟨S2048x1x1, .i1⟩) main_call3_v7) (TRef.of (T := ⟨S2048x1x1, .i1⟩) main_call3_v10) (TRef.of (T := ⟨S2048x1x1, .i1⟩) main_call3_v11) andi,
    TRef.nullary (TRef.of (T := ⟨S_, .i1⟩) main_call3_c_3) (constantI S_ 1 1#1),
    TRef.binary (TRef.of (T := ⟨S2048x1x1, .i1⟩) main_call3_v11) (TRef.of (T := ⟨S_, .i1⟩) main_call3_c_3) (TRef.of (T := ⟨S2048x1, .i1⟩) main_call3_v12) (fun x v => Host.reduce IntOp.andi x v reducesTo_S2048x1x1_S2048x1_d2 h_S_),
    TRef.binary (TRef.of (T := ⟨S2048x100000, .f32⟩) main_v25) (TRef.of (T := ⟨S2048x1x1, .i32⟩) main_call3_v5) (TRef.of (T := ⟨S2048x1, .f32⟩) main_call3_v13) (fun x i => Host.gather gather_S2048x100000_S2048x1x1_S2048x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S2048x1, .f32⟩) main_call3_v14) (broadcastInDim S2048x1 ![] bcast_S_S2048x1),
    TRef.ternary (TRef.of (T := ⟨S2048x1, .i1⟩) main_call3_v12) (TRef.of (T := ⟨S2048x1, .f32⟩) main_call3_v13) (TRef.of (T := ⟨S2048x1, .f32⟩) main_call3_v14) (TRef.of (T := ⟨S2048x1, .f32⟩) main_v27) select,
    reshape main_v27 main_v28 rfl shapeCasts_S2048x1_S2048,
    unary main_v28 main_v29 (Host.negf : (⟨S2048, .f32⟩ : BufTy).Contents (Elt F) → (⟨S2048, .f32⟩ : BufTy).Contents (Elt F)),
    nullary main_cst_7 (constant S_ .f32 0x00000000#32),
    binary main_v29 main_cst_7 main_v30 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_8 (constant S_ .f32 0x45000000#32),
    binary main_v30 main_cst_8 main_v31 (Host.divf : (⟨S_, .f32⟩ : BufTy).Contents (Elt F) → (⟨S_, .f32⟩ : BufTy).Contents (Elt F) → (⟨S_, .f32⟩ : BufTy).Contents (Elt F)) ]

/-- The line is the four stretches one after the other. -/
theorem ops_eq : RunP.ops (F := F) = ops1 ++ (ops2 ++ (ops3 ++ ops4)) := rfl

/-! ## Transport along a typed reference's type equation

A typed reference moves contents between the value's type and the buffer's own type along an equation of types.
There and back is the identity, and contents moved to the buffer's type are the same contents (heterogeneously equal). -/

/-- Contents moved to the buffer's type and back are unchanged. -/
theorem ofBuf_toBuf {sig' : RefSig} {Val : EltTy → Type} {T : BufTy} (x : TRef sig' T) (v : T.Contents Val) :
    x.ofBuf (x.toBuf v) = v := by
  obtain ⟨r, rfl, h2, h3⟩ := x
  rfl

/-- Contents moved to the buffer's type are the same contents. -/
theorem toBuf_heq {sig' : RefSig} {Val : EltTy → Type} {T : BufTy} (x : TRef sig' T) (v : T.Contents Val) :
    HEq (x.toBuf v) v := cast_heq _ _

/-! ## What each stretch leaves at the buffer it is read for

Each statement is for arbitrary starting contents `V`: the operations' results are rewritten one by one into the
operations' functions applied to what `V` holds at the stretch's inputs, and the stage definitions unfold to the same
composition. -/

/-- The first stretch leaves the first operand, rows normalised, in its seventh value. -/
theorem chunk1_v7 (V : Valuation τ sig (Elt F)) :
    after ops1 V (Proc.devRef .tc main_v7) = Stages.val_main_v7 (F := F) (V (Proc.devRef .tc main_arg0)) := by
  unfold ops1
  after_results_simp
  rfl

/-- The first stretch leaves the second operand, rows normalised and transposed, in its sixteenth value. -/
theorem chunk1_v16 (V : Valuation τ sig (Elt F)) :
    after ops1 V (Proc.devRef .tc main_v16) = Stages.val_main_v16 (F := F) (V (Proc.devRef .tc main_arg2)) := by
  unfold ops1
  after_results_simp
  rfl

/-- The second stretch, from contents holding the two normalised operands, leaves the scaled margin logits. -/
theorem chunk2 (V : Valuation τ sig (Elt F))
    (x0 : (⟨S2048x512, .f32⟩ : BufTy).Contents (Elt F)) (x2 : (⟨S100000x512, .f32⟩ : BufTy).Contents (Elt F))
    (h7 : V (Proc.devRef .tc main_v7) = Stages.val_main_v7 (F := F) x0)
    (h16 : V (Proc.devRef .tc main_v16) = Stages.val_main_v16 (F := F) x2) :
    after ops2 V (Proc.devRef .tc main_v24) = Stages.val_main_v24 (F := F) x0 (V (Proc.devRef .tc main_arg1)) x2 := by
  unfold ops2
  after_results_simp
  rw [h7, h16]
  rfl

/-- The third stretch, from contents holding the scaled logits, leaves their row-wise log-softmax.  The row maximum
    is a fold over a long axis, so the two sides are first brought to the same shape: every transport there and back
    inside the composed term is dropped, the transport at the input (a literal buffer, whose type is the value's) is
    the identity, and the transport at the output relates the same contents; what is left is the stage definitions,
    unfolded. -/
theorem chunk3 (V : Valuation τ sig (Elt F))
    (x0 : (⟨S2048x512, .f32⟩ : BufTy).Contents (Elt F)) (x1 : (⟨S2048, .i32⟩ : BufTy).Contents (Elt F))
    (x2 : (⟨S100000x512, .f32⟩ : BufTy).Contents (Elt F))
    (h24 : V (Proc.devRef .tc main_v24) = Stages.val_main_v24 (F := F) x0 x1 x2) :
    after ops3 V (Proc.devRef .tc main_v25) = Stages.val_main_v25 (F := F) x0 x1 x2 := by
  unfold ops3
  after_results_simp
  repeat rw [ofBuf_toBuf]
  rw [h24]
  have e24 : ∀ (u : (⟨S2048x100000, .f32⟩ : BufTy).Contents (Elt F)) p1 p2 p3,
      (TRef.of (T := (⟨S2048x100000, .f32⟩ : BufTy)) main_v24 p1 p2 p3).ofBuf u = u := fun _ _ _ _ => rfl
  simp only [e24]
  refine eq_of_heq ((toBuf_heq _ _).trans (heq_of_eq ?_))
  unfold Stages.val_main_v25 Stages.val_main_call2_v10 Stages.val_main_call2_v9 Stages.val_main_call2_v8 Stages.val_main_call2_v7 Stages.val_main_call2_cst_1 Stages.val_main_call2_v6 Stages.val_main_call2_v5 Stages.val_main_call2_v4 Stages.val_main_call2_v3 Stages.val_main_call2_v2 Stages.val_main_call2_v1 Stages.val_main_call2_cst_0 Stages.val_main_call2_v0 Stages.val_main_call2_cst
  rfl

/-- The fourth stretch, from contents holding the log-softmax, leaves the mean of the negated label entries. -/
theorem chunk4 (V : Valuation τ sig (Elt F))
    (x0 : (⟨S2048x512, .f32⟩ : BufTy).Contents (Elt F)) (x2 : (⟨S100000x512, .f32⟩ : BufTy).Contents (Elt F))
    (h25 : V (Proc.devRef .tc main_v25) = Stages.val_main_v25 (F := F) x0 (V (Proc.devRef .tc main_arg1)) x2) :
    after ops4 V (Proc.devRef .tc main_v31) = Stages.val_main_v31 (F := F) x0 (V (Proc.devRef .tc main_arg1)) x2 := by
  unfold ops4
  after_results_simp
  rw [h25]
  rfl

/-! ## What the line leaves alone

No operation writes an argument of @main: at an argument's buffer every operation's result is what was there. -/

/-- The first stretch does not write the labels. -/
theorem kept1_arg1 (V : Valuation τ sig (Elt F)) :
    after ops1 V (Proc.devRef .tc main_arg1) = V (Proc.devRef .tc main_arg1) := by
  unfold ops1
  after_results_simp

/-- The second stretch does not write the labels. -/
theorem kept2_arg1 (V : Valuation τ sig (Elt F)) :
    after ops2 V (Proc.devRef .tc main_arg1) = V (Proc.devRef .tc main_arg1) := by
  unfold ops2
  after_results_simp

/-- The third stretch does not write the labels. -/
theorem kept3_arg1 (V : Valuation τ sig (Elt F)) :
    after ops3 V (Proc.devRef .tc main_arg1) = V (Proc.devRef .tc main_arg1) := by
  unfold ops3
  after_results_simp

/-- The whole line leaves the first argument as launched. -/
theorem arg0_kept (V : Valuation τ sig (Elt F)) :
    after RunP.ops V (Proc.devRef .tc main_arg0) = V (Proc.devRef .tc main_arg0) := by
  unfold RunP.ops
  after_results_simp

/-- The whole line leaves the labels as launched. -/
theorem arg1_kept (V : Valuation τ sig (Elt F)) :
    after RunP.ops V (Proc.devRef .tc main_arg1) = V (Proc.devRef .tc main_arg1) := by
  unfold RunP.ops
  after_results_simp

/-- The whole line leaves the third argument as launched. -/
theorem arg2_kept (V : Valuation τ sig (Elt F)) :
    after RunP.ops V (Proc.devRef .tc main_arg2) = V (Proc.devRef .tc main_arg2) := by
  unfold RunP.ops
  after_results_simp

/-! ## The whole line -/

/-- The line leaves, in the result buffer, the last stage value of the three arguments as launched: the four
    stretches in turn, each fed what the one before it left, the labels read unchanged throughout. -/
theorem result_eq (V : Valuation τ sig (Elt F)) :
    after RunP.ops V (Proc.devRef .tc main_v31)
      = Stages.val_main_v31 (F := F) (V (Proc.devRef .tc main_arg0)) (V (Proc.devRef .tc main_arg1)) (V (Proc.devRef .tc main_arg2)) := by
  rw [ops_eq, after_append, after_append, after_append]
  have l1 : after ops1 V (Proc.devRef .tc main_arg1) = V (Proc.devRef .tc main_arg1) := kept1_arg1 V
  have l2 : after ops2 (after ops1 V) (Proc.devRef .tc main_arg1) = V (Proc.devRef .tc main_arg1) := (kept2_arg1 _).trans l1
  have l3 : after ops3 (after ops2 (after ops1 V)) (Proc.devRef .tc main_arg1) = V (Proc.devRef .tc main_arg1) := (kept3_arg1 _).trans l2
  have s24 := chunk2 (after ops1 V) _ _ (chunk1_v7 V) (chunk1_v16 V)
  rw [l1] at s24
  have s25 := chunk3 (after ops2 (after ops1 V)) _ _ _ s24
  have s31 := chunk4 (after ops3 (after ops2 (after ops1 V))) (V (Proc.devRef .tc main_arg0)) (V (Proc.devRef .tc main_arg2)) (by rw [l3]; exact s25)
  rw [l3] at s31
  exact s31

/-- On every device, from any memory with zero counters: every weakly fair execution of the reference @main
    terminates with the result buffer at the last stage value of the launched arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = Stages.val_main_v31 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v31).trans (result_eq (launchContents m c)),
      (h c main_arg0).trans (arg0_kept (launchContents m c)),
      (h c main_arg1).trans (arg1_kept (launchContents m c)),
      (h c main_arg2).trans (arg2_kept (launchContents m c))⟩)
    (RunP.run_raw m ρ)

end Cert.ReferenceIdeal.RefValue

end
-- ==== Proof.RefRead.lean ====
/-
  The reference program read as the margin-softmax loss.

  Row `n` of the reference's logits is `logit c h` for the clipped cosines `c` of that row and the one-hot row `h` of
  its label; the row maximum it shifts by is attained at some class; the log-softmax row is the logit less the
  maximum less the logarithm of the shifted exponentials' sum; the gather along the class axis reads that row at
  the label's class (a label below the class count is non-negative as a signed word, so it is neither wrapped nor
  masked, and the clamp of the gather's start index leaves it alone); the result is the mean of the negated reads.
-/
import proofs.«411922_j77790447665629_2_alg».proof.Proof.RefStages
import proofs.«411922_j77790447665629_2_alg».proof.Proof.MarginLoss
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefRead

open Cert.ReferenceIdeal Cert.ReferenceIdeal.Gen Cert.ReferenceIdeal.Stages Cert.MarginLoss
open Idealize.ShloMosaic Idealize.ShloMosaic.ValueIdx

/-- The embedding array. -/
abbrev X := (⟨S2048x512, .f32⟩ : BufTy).Contents (Elt Ideal)
/-- The label array. -/
abbrev G := (⟨S2048, .i32⟩ : BufTy).Contents (Elt Ideal)
/-- The weight array. -/
abbrev W := (⟨S100000x512, .f32⟩ : BufTy).Contents (Elt Ideal)

/-! ## The clipped cosines -/

/-- The contraction of a normalised embedding row with a normalised weight row (the transposed weight read back). -/
theorem cos_ix (x0 : X) (x2 : W) (n : Fin 2048) (k : Fin 100000) :
    val_main_v17 (F := Ideal) x0 x2 (ix2 n k)
      = cosine (val_main_v7 (F := Ideal) x0) (val_main_v15 (F := Ideal) x2) n k := by
  rw [val_main_v17_apply]
  unfold cosine
  refine Finset.sum_congr rfl fun d _ => ?_
  rw [val_main_v16_apply]
  have e1 : lidx_main_v17 (ix2 n k) d = ix2 n d :=
    funext fun a => Fin.ext (by match a with | ⟨0, _⟩ => rfl | ⟨1, _⟩ => rfl)
  have e2 : idx_main_v16 (ridx_main_v17 (ix2 n k) d) = ix2 k d :=
    funext fun a => Fin.ext (by match a with | ⟨0, _⟩ => rfl | ⟨1, _⟩ => rfl)
  rw [e1, e2]

/-- The clip of the cosine into [kLo, kHi]. -/
theorem clip_ix (x0 : X) (x2 : W) (n : Fin 2048) (k : Fin 100000) :
    val_main_v18 (F := Ideal) x0 x2 (ix2 n k)
      = clip (cosine (val_main_v7 (F := Ideal) x0) (val_main_v15 (F := Ideal) x2) n k) := by
  rw [val_main_v18_apply, val_main_call0_v4_apply, val_main_call0_v3_apply, val_main_cst_4_apply,
    val_main_call0_v2_apply, val_main_call0_v1_apply, val_main_call0_v0_apply, val_main_cst_3_apply, cos_ix]
  rfl

/-! ## The one-hot row and the logits -/

/-- A one-bit word converts to its value as a real. -/
theorem uitofp_bit (b : BitVec 1) : FloatOps.uitofp (F := Ideal) .f32 b = ((b.toNat : ℝ) : EReal) := rfl

/-- The one-hot row of a label below the class count: one at the label's class, zero elsewhere. -/
theorem onehot_ix (x1 : G) (n : Fin 2048) (hn : (x1 (ix1 n)).toNat < 100000) (k : Fin 100000) :
    val_main_v19 (F := Ideal) x1 (ix2 n k)
      = if k = classOf (x1 (ix1 n)) hn then ((1 : ℝ) : EReal) else ((0 : ℝ) : EReal) := by
  rw [val_main_v19_apply, val_main_call1_v4_apply, val_main_call1_v2_apply, val_main_call1_v0_apply,
    val_main_call1_v3_apply, val_main_call1_v1_apply, uitofp_bit]
  have e1 : idx_main_call1_v0 (idx_main_call1_v2 (ix2 n k)) = ix1 n :=
    funext fun a => Fin.ext (by match a with | ⟨0, _⟩ => rfl)
  have e2 : ((idx_main_call1_v3 (ix2 n k)) 1).val = k.val := rfl
  rw [e1, e2]
  by_cases hk : k = classOf (x1 (ix1 n)) hn
  · rw [if_pos hk]
    have hw : x1 (ix1 n) = BitVec.ofNat 32 k.val := by
      rw [hk]; show x1 (ix1 n) = BitVec.ofNat 32 (x1 (ix1 n)).toNat
      rw [BitVec.ofNat_toNat, BitVec.setWidth_eq]
    rw [StableHlo.Predicate.cmpi_eq_iff.mpr hw]
    norm_num
  · rw [if_neg hk]
    have hne : ¬ IntOp.cmpi .eq (x1 (ix1 n)) (BitVec.ofNat 32 k.val) = 1#1 := by
      intro h
      have hw := StableHlo.Predicate.cmpi_eq_iff.mp h
      apply hk
      apply Fin.ext
      show k.val = (x1 (ix1 n)).toNat
      rw [hw, BitVec.toNat_ofNat]
      have := k.isLt
      omega
    rw [eq_zero_of_ne_one hne]
    norm_num

/-- The logit of row `n` at class `k`. -/
theorem logits_ix (x0 : X) (x1 : G) (x2 : W) (n : Fin 2048) (hn : (x1 (ix1 n)).toNat < 100000) (k : Fin 100000) :
    val_main_v24 (F := Ideal) x0 x1 x2 (ix2 n k)
      = logit (fun k => clip (cosine (val_main_v7 (F := Ideal) x0) (val_main_v15 (F := Ideal) x2) n k))
          (fun k => if k = classOf (x1 (ix1 n)) hn then ((1 : ℝ) : EReal) else ((0 : ℝ) : EReal)) k := by
  rw [val_main_v24_apply, val_main_v23_apply, val_main_cst_6_apply, val_main_v22_apply, val_main_v21_apply,
    val_main_v20_apply, val_main_cst_5_apply, clip_ix, onehot_ix x1 n hn]
  rfl

/-! ## The row maximum -/

/-- The word of the reduction's initial value is the bottom element. -/
theorem negInf_eq_bot : Ideal.ofBits .f32 0xFF800000#32 = (⊥ : EReal) := by simp [Ideal.ofBits, Ideal.ieee]

/-- A maximum folded from the bottom element over a nonempty finite family is attained. -/
theorem fold_max_bot_attained {ι : Type} [DecidableEq ι] (f : ι → EReal) (s : Finset ι) (hs : s.Nonempty) :
    ∃ k ∈ s, s.fold max ⊥ f = f k := by
  induction s using Finset.induction_on with
  | empty => exact absurd hs Finset.not_nonempty_empty
  | insert a s ha ih =>
    rw [Finset.fold_insert ha]
    rcases s.eq_empty_or_nonempty with rfl | hne
    · exact ⟨a, Finset.mem_insert_self _ _, by rw [Finset.fold_empty]; exact max_bot_right _⟩
    · obtain ⟨k, hk, e⟩ := ih hne
      rw [e]
      rcases max_choice (f a) (f k) with h | h
      · exact ⟨a, Finset.mem_insert_self _ _, h⟩
      · exact ⟨k, Finset.mem_insert_of_mem hk, h⟩

/-- The maximum the reference shifts row j by -/
def rowMax (x0 : X) (x1 : G) (x2 : W) (j : S2048.Idx) : EReal := val_main_call2_v2 (F := Ideal) x0 x1 x2 j

/-- Row `n` with class `k` put back on the reduced axis is (n, k). -/
theorem lift_row (h : S2048x100000.Reduces [1] S2048) (n : Fin 2048) (k : Fin (S2048x100000.size 1)) :
    h.lift (ix1 n) k = ix2 n (⟨k.val, k.isLt⟩ : Fin 100000) := by
  funext c; apply Fin.ext
  fin_cases c <;> rfl

/-- The row maximum is the logit of some class of the row. -/
theorem rowMax_attained_ix (x0 : X) (x1 : G) (x2 : W) (n : Fin 2048) :
    ∃ k : Fin 100000, rowMax x0 x1 x2 (ix1 n) = val_main_v24 (F := Ideal) x0 x1 x2 (ix2 n k) := by
  have hR : S2048x100000.Reduces [1] S2048 := by decide
  unfold rowMax
  rw [val_main_call2_v2_apply, val_main_call2_v1_apply, val_main_call2_cst_0_apply]
  unfold val_main_call2_v0
  generalize val_main_v24 (F := Ideal) x0 x1 x2 = y
  have hfold := Host.reduce_eq_fold_single (s := S2048x100000) (t := S2048) (a := 1)
    (FloatOps.maximumf (F := Ideal) (φ := .f32)) y (val_main_call2_cst (F := Ideal))
    reducesTo_S2048x100000_S2048_d1 hR h_S_ (ix1 n)
  rw [hfold, val_main_call2_cst_apply]
  show ∃ k : Fin 100000, max (Ideal.ofBits .f32 0xFF800000#32)
    (Finset.fold max (Ideal.ofBits .f32 0xFF800000#32) (y ∘ hR.lift (ix1 n)) Finset.univ) = y (ix2 n k)
  rw [negInf_eq_bot, max_bot_left]
  obtain ⟨k, -, e⟩ := fold_max_bot_attained (y ∘ hR.lift (ix1 n)) Finset.univ ⟨⟨0, by decide⟩, Finset.mem_univ _⟩
  exact ⟨⟨k.val, k.isLt⟩, e.trans (congrArg y (lift_row hR n k))⟩

/-! ## The log-softmax row -/

/-- The logit less the row maximum. -/
theorem shift_ix (x0 : X) (x1 : G) (x2 : W) (n : Fin 2048) (k : Fin 100000) :
    val_main_call2_v5 (F := Ideal) x0 x1 x2 (ix2 n k)
      = val_main_v24 (F := Ideal) x0 x1 x2 (ix2 n k) - rowMax x0 x1 x2 (ix1 n) := by
  rw [val_main_call2_v5_apply, val_main_call2_v4_apply, val_main_call2_v3_apply]
  have e : idx_main_call2_v3 (idx_main_call2_v4 (ix2 n k)) = ix1 n :=
    funext fun a => Fin.ext (by match a with | ⟨0, _⟩ => rfl)
  rw [e]
  rfl

/-- The sum of the shifted exponentials of a row, from the zero word. -/
theorem denom_ix (x0 : X) (x1 : G) (x2 : W) (n : Fin 2048) :
    val_main_call2_v7 (F := Ideal) x0 x1 x2 (ix1 n)
      = kZero + ∑ k : Fin 100000,
          Ideal.exp (val_main_v24 (F := Ideal) x0 x1 x2 (ix2 n k) - rowMax x0 x1 x2 (ix1 n)) := by
  rw [val_main_call2_v7_apply, val_main_call2_cst_1_apply]
  refine congrArg (_ + ·) (Finset.sum_congr rfl fun k _ => ?_)
  have e : idx_main_call2_v7 (ix1 n) k = ix2 n k :=
    funext fun a => Fin.ext (by match a with | ⟨0, _⟩ => rfl | ⟨1, _⟩ => rfl)
  rw [e, val_main_call2_v6_apply, shift_ix]
  rfl

/-- The log-probability of class `k` in row `n`. -/
theorem logsoftmax_ix (x0 : X) (x1 : G) (x2 : W) (n : Fin 2048) (k : Fin 100000) :
    val_main_v25 (F := Ideal) x0 x1 x2 (ix2 n k)
      = (val_main_v24 (F := Ideal) x0 x1 x2 (ix2 n k) - rowMax x0 x1 x2 (ix1 n))
        - Ideal.log (kZero + ∑ k' : Fin 100000,
            Ideal.exp (val_main_v24 (F := Ideal) x0 x1 x2 (ix2 n k') - rowMax x0 x1 x2 (ix1 n))) := by
  rw [val_main_v25_apply, shift_ix, val_main_call2_v10_apply, val_main_call2_v9_apply, val_main_call2_v8_apply]
  have e : idx_main_call2_v8 (idx_main_call2_v10 (ix2 n k)) = ix1 n :=
    funext fun a => Fin.ext (by match a with | ⟨0, _⟩ => rfl)
  rw [e, denom_ix]
  simp only [Ideal.subf_def, Ideal.hostUnary_log_def]

/-! ## The read along the class axis -/

/-- A label below the class count is non-negative as a signed word, so the wrap of negative indices leaves it. -/
theorem start_ix (x1 : G) (n : Fin 2048) (hn : (x1 (ix1 n)).toNat < 100000) :
    val_main_call3_v5 (F := Ideal) x1 (ix3 n (0 : Fin 1) (0 : Fin 1)) = x1 (ix1 n) := by
  rw [val_main_call3_v5_apply]
  have e1 : idx_main_call3_v5 (ix3 n (0 : Fin 1) (0 : Fin 1)) = ix2 n (0 : Fin 1) :=
    funext fun a => Fin.ext (by
      match a with
      | ⟨0, _⟩ => show ((n.val * 1 + 0) * 1 + 0) / 1 = n.val; omega
      | ⟨1, _⟩ => rfl)
  rw [e1, val_main_call3_v4_apply, val_main_call3_v1_apply, val_main_v26_apply, val_main_call3_v0_apply,
    val_main_call3_c_apply]
  have e2 : idx_main_v26 (ix2 n (0 : Fin 1)) = ix1 n :=
    funext fun a => Fin.ext (by match a with | ⟨0, _⟩ => rfl)
  rw [e2]
  have hne : ¬ IntOp.cmpi .slt (x1 (ix1 n)) 0#32 = 1#1 := by
    intro h
    have h0 : (0#32 : BitVec 32).toNat = 0 := rfl
    have := (StableHlo.Predicate.slt_iff_toNat (by omega) (by decide)).mp h
    omega
  rw [eq_zero_of_ne_one hne, select_zero]

/-- Row `n` of the label column with the unit axis put back is its one cell. -/
theorem lift_cell (h : S2048x1x1.Reduces [2] S2048x1) (n : Fin 2048) (k : Fin (S2048x1x1.size 2)) :
    h.lift (ix2 n (0 : Fin 1)) k = ix3 n (0 : Fin 1) (0 : Fin 1) := by
  funext c; apply Fin.ext
  have hk : k.val < 1 := k.isLt
  fin_cases c
  · rfl
  · rfl
  · show k.val = 0; omega

/-- A conjunction folded from the set bit over set bits is set. -/
theorem fold_andi_one {ι : Type} (s : Finset ι) (f : ι → BitVec 1) (hf : ∀ k, f k = 1#1) :
    s.fold IntOp.andi 1#1 f = 1#1 := by
  classical
  induction s using Finset.induction_on with
  | empty => rfl
  | insert a s ha ih => rw [Finset.fold_insert ha, ih, hf a]; rfl

/-- The in-range mask of a label below the class count is set. -/
theorem mask_ix (x1 : G) (n : Fin 2048) (hn : (x1 (ix1 n)).toNat < 100000) :
    val_main_call3_v12 (F := Ideal) x1 (ix2 n (0 : Fin 1)) = 1#1 := by
  have hR : S2048x1x1.Reduces [2] S2048x1 := by decide
  have h11 : val_main_call3_v11 (F := Ideal) x1 (ix3 n (0 : Fin 1) (0 : Fin 1)) = 1#1 := by
    rw [val_main_call3_v11_apply, val_main_call3_v7_apply, val_main_call3_v10_apply, start_ix x1 n hn,
      val_main_call3_v6_apply, val_main_call3_c_2_apply, val_main_call3_v9_apply, val_main_call3_v8_apply,
      val_main_call3_c_1_apply]
    have h0 : (0#32 : BitVec 32).toNat = 0 := rfl
    have h9 : (99999#32 : BitVec 32).toNat = 99999 := rfl
    rw [(StableHlo.Predicate.sge_iff_toNat (by omega) (by decide)).mpr (by omega),
      (StableHlo.Predicate.sle_iff_toNat (by omega) (by decide)).mpr (by omega)]
    rfl
  unfold val_main_call3_v12
  revert h11
  generalize val_main_call3_v11 (F := Ideal) x1 = y
  intro h11
  have hfold := Host.reduce_eq_fold_single (s := S2048x1x1) (t := S2048x1) (a := 2)
    (IntOp.andi (w := 1)) y (val_main_call3_c_3 (F := Ideal)) reducesTo_S2048x1x1_S2048x1_d2 hR h_S_
    (ix2 n (0 : Fin 1))
  rw [hfold, val_main_call3_c_3_apply]
  exact fold_andi_one _ _ (fun k => (congrArg y (lift_cell hR n k)).trans h11)

/-- The gather's operand index on the row axis: the batching axis carries the result's row. -/
theorem gather_axis0 (idx : IVec S2048x1x1 32) (n : Fin 2048) :
    (gather_S2048x100000_S2048x1x1_S2048x1_n_1_0_0_1_2_11.operandIdx (ix2 n (0 : Fin 1)) idx 0).val = n.val := by
  show gather_S2048x100000_S2048x1x1_S2048x1_n_1_0_0_1_2_11.start (ix2 n (0 : Fin 1)) idx 0 + gather_S2048x100000_S2048x1x1_S2048x1_n_1_0_0_1_2_11.batchCoord (ix2 n (0 : Fin 1)) 0
    + gather_S2048x100000_S2048x1x1_S2048x1_n_1_0_0_1_2_11.offCoord (ix2 n (0 : Fin 1)) 0 = n.val
  rw [GatherDims.start_batching _ _ _ _ (show (0 : Fin 2) ∈ gather_S2048x100000_S2048x1x1_S2048x1_n_1_0_0_1_2_11.operandBatchingDims from List.mem_singleton.mpr rfl),
    GatherDims.offCoord_eq_zero _ _ _ (fun h => ((GatherDims.mem_sKept _ _).mp h).2 (List.mem_singleton.mpr rfl))]
  simp only [Nat.zero_add, Nat.add_zero]
  rfl

/-- The gather's operand index on the class axis: the start index read signed and clamped into the class range. -/
theorem gather_axis1 (idx : IVec S2048x1x1 32) (n : Fin 2048) :
    (gather_S2048x100000_S2048x1x1_S2048x1_n_1_0_0_1_2_11.operandIdx (ix2 n (0 : Fin 1)) idx 1).val
      = min (idx (ix3 n (0 : Fin 1) (0 : Fin 1))).toInt.toNat 99999 := by
  show gather_S2048x100000_S2048x1x1_S2048x1_n_1_0_0_1_2_11.start (ix2 n (0 : Fin 1)) idx 1 + gather_S2048x100000_S2048x1x1_S2048x1_n_1_0_0_1_2_11.batchCoord (ix2 n (0 : Fin 1)) 1
    + gather_S2048x100000_S2048x1x1_S2048x1_n_1_0_0_1_2_11.offCoord (ix2 n (0 : Fin 1)) 1 = _
  rw [GatherDims.batchCoord_eq_zero _ _ _ (show (1 : Fin 2) ∉ gather_S2048x100000_S2048x1x1_S2048x1_n_1_0_0_1_2_11.operandBatchingDims by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gather_S2048x100000_S2048x1x1_S2048x1_n_1_0_0_1_2_11.startIndexMap from List.mem_singleton.mpr rfl)]
  have hsi : gather_S2048x100000_S2048x1x1_S2048x1_n_1_0_0_1_2_11.siIdx (ix2 n (0 : Fin 1)) ⟨List.idxOf (1 : Fin 2) gather_S2048x100000_S2048x1x1_S2048x1_n_1_0_0_1_2_11.startIndexMap,
      List.idxOf_lt_length_iff.2 (List.mem_singleton.mpr rfl)⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- The gather reads row `n` of the log-probabilities at its label's class. -/
theorem gather_ix (x0 : X) (x1 : G) (x2 : W) (n : Fin 2048) (hn : (x1 (ix1 n)).toNat < 100000) :
    val_main_call3_v13 (F := Ideal) x0 x1 x2 (ix2 n (0 : Fin 1))
      = val_main_v25 (F := Ideal) x0 x1 x2 (ix2 n (classOf (x1 (ix1 n)) hn)) := by
  have h5 := start_ix x1 n hn
  unfold val_main_call3_v13
  revert h5
  generalize val_main_v25 (F := Ideal) x0 x1 x2 = y
  generalize val_main_call3_v5 (F := Ideal) x1 = idx
  intro h5
  unfold Host.gather
  refine congrArg y (funext fun a => Fin.ext ?_)
  match a with
  | ⟨0, _⟩ => exact gather_axis0 idx n
  | ⟨1, _⟩ =>
    refine (gather_axis1 idx n).trans ?_
    rw [h5, StableHlo.Predicate.toInt_eq_toNat_of_lt (by omega)]
    show min ((x1 (ix1 n)).toNat : ℤ).toNat 99999 = (x1 (ix1 n)).toNat
    omega

/-- The masked read of row `n`: its log-probability at its label's class. -/
theorem take_ix (x0 : X) (x1 : G) (x2 : W) (n : Fin 2048) (hn : (x1 (ix1 n)).toNat < 100000) :
    val_main_v27 (F := Ideal) x0 x1 x2 (ix2 n (0 : Fin 1))
      = val_main_v25 (F := Ideal) x0 x1 x2 (ix2 n (classOf (x1 (ix1 n)) hn)) := by
  rw [val_main_v27_apply, mask_ix x1 n hn, select_one, gather_ix x0 x1 x2 n hn]

/-! ## The rows' losses and their mean -/

/-- Row `n`'s negated log-probability at its label's class is its loss after the shift by the row maximum. -/
theorem row_ix (x0 : X) (x1 : G) (x2 : W) (n : Fin 2048) (hn : (x1 (ix1 n)).toNat < 100000) :
    val_main_v29 (F := Ideal) x0 x1 x2 (ix1 n)
      = rowLossR (fun k => clip (cosine (val_main_v7 (F := Ideal) x0) (val_main_v15 (F := Ideal) x2) n k))
          (fun k => if k = classOf (x1 (ix1 n)) hn then ((1 : ℝ) : EReal) else ((0 : ℝ) : EReal))
          (classOf (x1 (ix1 n)) hn) (rowMax x0 x1 x2 (ix1 n)) := by
  rw [val_main_v29_apply, val_main_v28_apply]
  have e : idx_main_v28 (ix1 n) = ix2 n (0 : Fin 1) :=
    funext fun a => Fin.ext (by
      match a with
      | ⟨0, _⟩ => show n.val / 1 = n.val; omega
      | ⟨1, _⟩ => rfl)
  rw [e, take_ix x0 x1 x2 n hn, logsoftmax_ix]
  unfold rowLossR
  simp only [logits_ix x0 x1 x2 n hn, Ideal.hostNegf_def, Ideal.negf_def]

/-- The reference's result is the mean of the rows' losses. -/
theorem read (x0 : X) (x1 : G) (x2 : W) (hgt : ∀ j : S2048.Idx, (x1 j).toNat < 100000) (i : S_.Idx) :
    val_main_v31 (F := Ideal) x0 x1 x2 i
      = meanLoss (fun j => rowLossR
          (fun k => clip (cosine (val_main_v7 (F := Ideal) x0) (val_main_v15 (F := Ideal) x2) (j 0) k))
          (fun k => if k = classOf (x1 j) (hgt j) then ((1 : ℝ) : EReal) else ((0 : ℝ) : EReal))
          (classOf (x1 j) (hgt j)) (rowMax x0 x1 x2 j)) := by
  have hs : ∀ j : S2048.Idx, val_main_v29 (F := Ideal) x0 x1 x2 j
      = rowLossR
          (fun k => clip (cosine (val_main_v7 (F := Ideal) x0) (val_main_v15 (F := Ideal) x2) (j 0) k))
          (fun k => if k = classOf (x1 j) (hgt j) then ((1 : ℝ) : EReal) else ((0 : ℝ) : EReal))
          (classOf (x1 j) (hgt j)) (rowMax x0 x1 x2 j) := by
    intro j
    obtain ⟨n, rfl⟩ : ∃ n : Fin 2048, j = ix1 n := ⟨j 0, eq_ix1 j⟩
    exact row_ix x0 x1 x2 n (hgt (ix1 n))
  rw [val_main_v31_apply, val_main_v30_apply, val_main_cst_7_apply, val_main_cst_8_apply]
  unfold meanLoss
  simp only [hs, Ideal.hostDivf_def, Ideal.ofBits_def]

/-- The row maximum is the logit of some class of the row. -/
theorem rowMax_attained (x0 : X) (x1 : G) (x2 : W) (j : S2048.Idx) :
    ∃ k : Fin 100000, rowMax x0 x1 x2 j = val_main_v24 (F := Ideal) x0 x1 x2 (ix2 (j 0) k) := by
  obtain ⟨n, rfl⟩ : ∃ n : Fin 2048, j = ix1 n := ⟨j 0, eq_ix1 j⟩
  exact rowMax_attained_ix x0 x1 x2 n

/-- The logit of row `j` at class `k`. -/
theorem logits_apply (x0 : X) (x1 : G) (x2 : W) (hgt : ∀ j : S2048.Idx, (x1 j).toNat < 100000) (j : S2048.Idx)
    (k : Fin 100000) :
    val_main_v24 (F := Ideal) x0 x1 x2 (ix2 (j 0) k)
      = logit (fun k => clip (cosine (val_main_v7 (F := Ideal) x0) (val_main_v15 (F := Ideal) x2) (j 0) k))
          (fun k => if k = classOf (x1 j) (hgt j) then ((1 : ℝ) : EReal) else ((0 : ℝ) : EReal)) k := by
  obtain ⟨n, rfl⟩ : ∃ n : Fin 2048, j = ix1 n := ⟨j 0, eq_ix1 j⟩
  exact logits_ix x0 x1 x2 n (hgt (ix1 n)) k

end Cert.ReferenceIdeal.RefRead

end
-- ==== Proof.RefLoss.lean ====
/-
  The reference's result in the kernel's form.

  The reference shifts each row's logits by the row maximum.  That maximum is one of the row's logits, each of
  which is a real number (a scale times a clipped cosine less a margin), so it is neither infinity; over the
  reals the shift cancels against the logarithm of the shifted sum, and the sum with the margin applied at the
  label's class is the plain sum with that one term exchanged.  Hence each row's negated log-probability is the
  row loss formed from the plain denominator, and the two means agree.
-/
import proofs.«411922_j77790447665629_2_alg».proof.Proof.RefRead
import proofs.«411922_j77790447665629_2_alg».proof.Proof.LossIdentity

noncomputable section

namespace Cert.ReferenceIdeal.RefLoss

open Cert.ReferenceIdeal Cert.ReferenceIdeal.Gen Cert.ReferenceIdeal.Stages Cert.ReferenceIdeal.RefRead Cert.MarginLoss
open Idealize.ShloMosaic Idealize.ShloMosaic.ValueIdx

/-- The row maximum is a real number: it is one of the row's logits. -/
theorem rowMax_real (x0 : X) (x1 : G) (x2 : W) (hgt : ∀ j : S2048.Idx, (x1 j).toNat < 100000) (j : S2048.Idx) :
    ⊥ < rowMax x0 x1 x2 j ∧ rowMax x0 x1 x2 j < ⊤ := by
  obtain ⟨k, hk⟩ := rowMax_attained x0 x1 x2 j
  rw [hk, logits_apply x0 x1 x2 hgt j k]
  obtain ⟨r, hr⟩ := logit_real (fun k => cosine (val_main_v7 (F := Ideal) x0) (val_main_v15 (F := Ideal) x2) (j 0) k)
    (classOf (x1 j) (hgt j)) (fun k => if k = classOf (x1 j) (hgt j) then ((1 : ℝ) : EReal) else ((0 : ℝ) : EReal))
    (fun _ => rfl) k
  rw [hr]
  exact ⟨EReal.bot_lt_coe r, EReal.coe_lt_top r⟩

/-- The reference's result is the mean of the rows' losses formed from the plain denominators. -/
theorem value_eq (x0 : X) (x1 : G) (x2 : W) (hgt : ∀ j : S2048.Idx, (x1 j).toNat < 100000) (i : S_.Idx) :
    val_main_v31 (F := Ideal) x0 x1 x2 i
      = meanLoss (fun j => rowLossK
          (plainDenominator fun k => clip (cosine (val_main_v7 (F := Ideal) x0) (val_main_v15 (F := Ideal) x2) (j 0) k))
          (clip (cosine (val_main_v7 (F := Ideal) x0) (val_main_v15 (F := Ideal) x2) (j 0) (classOf (x1 j) (hgt j))))) := by
  rw [read x0 x1 x2 hgt i]
  refine congrArg meanLoss (funext fun j => ?_)
  exact rowLoss_eq (fun k => cosine (val_main_v7 (F := Ideal) x0) (val_main_v15 (F := Ideal) x2) (j 0) k)
    (classOf (x1 j) (hgt j)) _ (fun _ => rfl) _ (rowMax_real x0 x1 x2 hgt j).1 (rowMax_real x0 x1 x2 hgt j).2

end Cert.ReferenceIdeal.RefLoss

end
-- ==== Proof.Labels.lean ====
/-
  The label range read out of the precondition.

  The precondition's last conjunct is the conjunction, over all 2048 rows, of `0 ≤ label` and `label < 100000`,
  both compared as signed 32-bit numbers.  A word that is non-negative as a signed number has its top bit clear,
  so its signed and unsigned readings agree; hence under the precondition every label word, read unsigned, is a
  class number below 100000.
-/
import proofs.«411922_j77790447665629_2_alg».proof.Pre_finite_inputs
import Idealize.ShloMosaic.Lib.ReduceAll
import Idealize.ShloMosaic.Lib.ValueIdx
import Idealize.ShloMosaic.Lib.StableHlo.Predicate

noncomputable section

namespace Cert.Pre_finite_inputs.Labels

open Idealize.ShloMosaic Idealize.ShloMosaic.ValueIdx Cert.Pre_finite_inputs

variable [Cert.Pre_finite_inputs.Facts]

/-- The scalar shape has one index. -/
instance : Subsingleton S_.Idx := ⟨fun _ _ => funext fun d => d.elim0⟩

/-- A 32-bit word between 0 and 100000 as a signed number is below 100000 as an unsigned one. -/
theorem toNat_lt_of_signed (w : BitVec 32) (h0 : (0#32 : BitVec 32).toInt ≤ w.toInt) (h1 : w.toInt < (100000#32 : BitVec 32).toInt) :
    w.toNat < 100000 := by
  have e0 : (0#32 : BitVec 32).toInt = 0 := by decide
  have e1 : (100000#32 : BitVec 32).toInt = 100000 := by decide
  rw [e0] at h0; rw [e1] at h1
  have hc := BitVec.toInt_eq_toNat_cond w
  have hl := w.isLt
  split at hc <;> omega

/-- Under the precondition every label word is a class number. -/
theorem labels_lt {F : FTy → Type} [FloatOps F] (x0 : FVec F S2048x512 .f32) (x1 : IVec S2048 32) (x2 : FVec F S100000x512 .f32)
    (h : fn (F := F) x0 x1 x2 = fun _ => 1#1) (j : S2048.Idx) : (x1 j).toNat < 100000 := by
  have h0 := congrFun h ix0
  dsimp only [fn] at h0
  obtain ⟨-, h14⟩ := IntOp.andi_eq_one.1 h0
  have hj := Host.reduce_andi_all _ _ Facts.reducesTo_S2048_S_d0 Facts.h_S_ ix0 h14 j
  obtain ⟨hge, hlt⟩ := IntOp.andi_eq_one.1 hj
  refine toNat_lt_of_signed (x1 j) ?_ ?_
  · have := IntOp.cmpi_sge.1 hge
    rw [StableHlo.Predicate.bcast_scalar _ Facts.h_S_] at this
    exact this
  · have := IntOp.cmpi_slt.1 hlt
    rw [StableHlo.Predicate.bcast_scalar _ Facts.h_S_] at this
    exact this

end Cert.Pre_finite_inputs.Labels

end
-- ==== Proof.Claims.lean ====
/-
  The five claims, from the pieces.

  Both idealized programs end with the mean, over the 2048 rows, of the row loss formed from the row's plain
  softmax denominator and the clipped cosine at the label's class: the kernel program by its region's column sums
  and its host tail, the reference by its own run read back and the cancellation of its shift.  The two
  normalisations are the same seven host operations on the same arguments, and under the precondition every label
  word is a class number, so the two means are one extended real.  The three frames are the generated frame runs
  (the reference's: its run with the result dropped); nothing was rewritten by the ideal pass.
-/
import proofs.«411922_j77790447665629_2_alg».proof.Defs
import proofs.«411922_j77790447665629_2_alg».proof.Proof.Gen.Kernel.Frame
import proofs.«411922_j77790447665629_2_alg».proof.Proof.Gen.Pre_finite_inputs
import proofs.«411922_j77790447665629_2_alg».proof.Proof.KernelValue
import proofs.«411922_j77790447665629_2_alg».proof.Proof.KernelPrefixRef
import proofs.«411922_j77790447665629_2_alg».proof.Proof.RefValue
import proofs.«411922_j77790447665629_2_alg».proof.Proof.RefLoss
import proofs.«411922_j77790447665629_2_alg».proof.Proof.Labels

noncomputable section

namespace Cert.Proof.Claims

open Idealize.ShloMosaic Idealize.ShloMosaic.TcCoe Idealize.SL.Sem Idealize.ShloMosaic.ValueIdx Cert.MarginLoss

variable [hKernel : Cert.Kernel.Facts] [hKernelIdeal : Cert.KernelIdeal.Facts] [hReferenceIdeal : Cert.ReferenceIdeal.Facts]
  [hPre : Cert.Pre_finite_inputs.Facts]

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- The region's column sums, as the kernel-side value takes them. -/
abbrev RegionSums : Prop :=
  ∀ (m : (ℓ : Loc Cert.KernelIdeal.nD Cert.KernelIdeal.τ Cert.KernelIdeal.sig) → Buf (Elt Ideal) ℓ)
    (c : Dev Cert.KernelIdeal.nD) (n : Fin 2048),
    Cert.KernelIdeal.Result.outArr m c (ix2 0 n)
      = plainDenominator (fun k => clip (∑ d : Fin 512,
          Cert.KernelIdeal.Result.regW m c (ix2 k d) * Cert.KernelIdeal.Result.regE m c (ix2 d n)))

/-- The kernel-side value with the two unit-length matrices named by any arrays equal to them. -/
theorem kernel_value_of (hregion : RegionSums)
    (m : (ℓ : Loc Cert.KernelIdeal.nD Cert.KernelIdeal.τ Cert.KernelIdeal.sig) → Buf (Elt Ideal) ℓ) (c : Dev Cert.KernelIdeal.nD)
    (hgt : ∀ j : Cert.KernelIdeal.S2048.Idx, (Cert.KernelIdeal.Result.labels m c j).toNat < 100000)
    (e : (⟨2, ![2048, 512]⟩ : Shape).Idx → EReal) (w : (⟨2, ![100000, 512]⟩ : Shape).Idx → EReal)
    (he : Cert.KernelIdeal.Result.unitE m c = e) (hw : Cert.KernelIdeal.Result.unitW m c = w) (i : Cert.KernelIdeal.S_.Idx) :
    (StableHlo.after (List.flatten [Cert.KernelIdeal.Gen.hostOps1 (F := Ideal), Cert.KernelIdeal.Gen.hostOps1_1, Cert.KernelIdeal.Gen.hostOps1_2])
        (Cert.KernelIdeal.Run.exitVal m c) (Proc.devRef .tc Cert.KernelIdeal.main_v54) : Cert.KernelIdeal.S_.Idx → EReal) i
      = meanLoss (fun j => rowLossK (plainDenominator fun k => clip (cosine e w (j 0) k))
          (clip (cosine e w (j 0) (classOf (Cert.KernelIdeal.Result.labels m c j) (hgt j))))) := by
  subst he; subst hw
  exact Cert.KernelIdeal.Result.result_value m c (hregion m c) hgt i

theorem algebraic (hregion : RegionSums) : Cert.algebraic_KernelIdeal_ReferenceIdeal := by
  intro m ρ m' ρ' hpre hagree
  have hgt : ∀ (c : Dev Cert.KernelIdeal.nD) (j : Cert.KernelIdeal.S2048.Idx),
      (Cert.KernelIdeal.Result.labels m c j).toNat < 100000 :=
    fun c j => Cert.Pre_finite_inputs.Labels.labels_lt _ _ _ (hpre c) j
  refine ⟨fun c _ => meanLoss (fun j => rowLossK
      (plainDenominator fun k => clip (cosine
        (Cert.ReferenceIdeal.Stages.val_main_v7 (F := Ideal) (m ((c.tc : Thread Cert.KernelIdeal.nD Cert.KernelIdeal.τ).loc Cert.KernelIdeal.main_arg0)))
        (Cert.ReferenceIdeal.Stages.val_main_v15 (F := Ideal) (m ((c.tc : Thread Cert.KernelIdeal.nD Cert.KernelIdeal.τ).loc Cert.KernelIdeal.main_arg2))) (j 0) k))
      (clip (cosine
        (Cert.ReferenceIdeal.Stages.val_main_v7 (F := Ideal) (m ((c.tc : Thread Cert.KernelIdeal.nD Cert.KernelIdeal.τ).loc Cert.KernelIdeal.main_arg0)))
        (Cert.ReferenceIdeal.Stages.val_main_v15 (F := Ideal) (m ((c.tc : Thread Cert.KernelIdeal.nD Cert.KernelIdeal.τ).loc Cert.KernelIdeal.main_arg2))) (j 0)
        (classOf (Cert.KernelIdeal.Result.labels m c j) (hgt c j))))), ?_, ?_⟩
  · exact (θ_run Cert.KernelIdeal.defs _ _).mono
      (fun _ h c => ⟨(h c).1.trans (funext fun i => kernel_value_of hregion m c (hgt c) _ _
        (Cert.KernelIdeal.Prefix.unitRowsE_eq_ref _) (Cert.KernelIdeal.Prefix.unitRowsW_eq_ref _) i), (h c).2⟩)
      (Cert.KernelIdeal.Run.run_result m ρ)
  · refine (θ_run Cert.ReferenceIdeal.defs _ _).mono (fun _ h c => ⟨(h c).1.trans (funext fun i => ?_), (h c).2⟩)
      (Cert.ReferenceIdeal.RefValue.run (F := Ideal) m' ρ')
    rw [(hagree c).1, (hagree c).2.1, (hagree c).2.2]
    exact Cert.ReferenceIdeal.RefLoss.value_eq _ _ _ (hgt c) i

end Cert.Proof.Claims

end
-- ==== Proof.lean ====
/-
  The proof of `Cert.Claim`: a margin-softmax (CosFace) loss computed by a kernel that accumulates each row's
  plain softmax denominator over class tiles and corrects the label's term on the host, against the reference that
  applies the margin through a one-hot row, takes a log-softmax and reads the label's entry.

  Over the extended reals both are the mean over the rows of
  `30 + log (Σ_{k ≠ g} exp (30·c k − 30) + exp (30·(c g − μ) − 30)) − 30·(c g − μ)` for the row's clipped cosines `c` and
  label class `g`: the reference's shift by the row maximum cancels against the logarithm, the kernel's floor under
  the corrected denominator never binds (every term is at least exp (−60)), and the clip makes every cosine a real
  number whatever the inputs.  The precondition's label range (labels are class numbers) is what makes the two
  programs read the same class.  The modules: `MarginLoss` (the specification), `LossIdentity` (the identity over
  the reals), `Labels` (the label range out of the precondition), `KernelPrefix` / `RegionSum` / `KernelTail` /
  `KernelRun` / `KernelValue` (the kernel program's value), `RefValue` / `RefRead` / `RefLoss` (the reference's),
  `Claims` (the five claims).
-/
import proofs.«411922_j77790447665629_2_alg».proof.Defs
import proofs.«411922_j77790447665629_2_alg».proof.Proof.Gen.Kernel
import proofs.«411922_j77790447665629_2_alg».proof.Proof.Gen.KernelIdeal
import proofs.«411922_j77790447665629_2_alg».proof.Proof.Gen.ReferenceIdeal
import proofs.«411922_j77790447665629_2_alg».proof.Proof.Gen.Pre_finite_inputs
import proofs.«411922_j77790447665629_2_alg».proof.Proof.RegionSum
import proofs.«411922_j77790447665629_2_alg».proof.Proof.Claims
import Idealize.ShloMosaic.Adequacy
import Idealize.ShloMosaic.Init

noncomputable section

namespace Cert.Proof

open Idealize.ShloMosaic Idealize.SL.Sem

/-- The region's column sums in the form the claims take them. -/
theorem regionSums : Cert.Proof.Claims.RegionSums := fun m c n => Cert.KernelIdeal.RegionSum.region_sum m c n

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic regionSums⟩

end Cert.Proof

end
